-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x256 .f32) (main_arg13 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x64 .f32) (main_arg9 : FVec F S256x64 .f32) (main_arg10 : FVec F S256 .f32) (main_arg11 : FVec F S128x256 .f32) (main_arg12 : FVec F S128x256 .f32) (main_arg13 : FVec F S128 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_v48 main_v49 main_v50

def fn_part1 {F : FTy → Type} [FloatOps F] (main_arg5 : FVec F S64x256 .f32) (main_arg6 : FVec F S64x256 .f32) (main_arg7 : FVec F S64 .f32) (main_arg8 : FVec F S256x64 .f32) (main_arg9 : FVec F S256x64 .f32) (main_arg10 : FVec F S256 .f32) (main_arg11 : FVec F S128x256 .f32) (main_arg12 : FVec F S128x256 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S256x128 .f32) (main_arg3 : FVec F S256x128 .f32) (main_arg4 : FVec F S256 .f32) (main_arg5 : FVec F S64x256 .f32) (main_arg6 : FVec F S64x256 .f32) (main_arg7 : FVec F S64 .f32) (main_arg8 : FVec F S256x64 .f32) (main_arg9 : FVec F S256x64 .f32) (main_arg10 : FVec F S256 .f32) (main_arg11 : FVec F S128x256 .f32) (main_arg12 : FVec F S128x256 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x64 : Shape := ⟨2, ![1, 64]⟩
abbrev S50000x64 : Shape := ⟨2, ![50000, 64]⟩
abbrev S2000x64 : Shape := ⟨2, ![2000, 64]⟩
abbrev S800000x64 : Shape := ⟨2, ![800000, 64]⟩
abbrev S1x128 : Shape := ⟨2, ![1, 128]⟩

abbrev nBuf : Space → Nat
  | .hbm => 86
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64x256, .f32⟩
  | .hbm, ⟨7, _⟩ => ⟨S64, .f32⟩
  | .hbm, ⟨8, _⟩ => ⟨S256x64, .f32⟩
  | .hbm, ⟨9, _⟩ => ⟨S256x64, .f32⟩
  | .hbm, ⟨10, _⟩ => ⟨S256, .f32⟩
  | .hbm, ⟨11, _⟩ => ⟨S128x256, .f32⟩
  | .hbm, ⟨12, _⟩ => ⟨S128x256, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S128x256, .f32⟩
  | .hbm, ⟨32, _⟩ => ⟨S128x256, .f32⟩
  | .hbm, ⟨33, _⟩ => ⟨S1x256, .f32⟩
  | .hbm, ⟨34, _⟩ => ⟨S50000x256, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S256x64, .f32⟩
  | .hbm, ⟨49, _⟩ => ⟨S256x64, .f32⟩
  | .hbm, ⟨50, _⟩ => ⟨S1x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S64x256, .f32⟩
  | .hbm, ⟨66, _⟩ => ⟨S64x256, .f32⟩
  | .hbm, ⟨67, _⟩ => ⟨S1x256, .f32⟩
  | .hbm, ⟨68, _⟩ => ⟨S50000x256, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S256x128, .f32⟩
  | .hbm, ⟨83, _⟩ => ⟨S256x128, .f32⟩
  | .hbm, ⟨84, _⟩ => ⟨S1x128, .f32⟩
  | .hbm, ⟨85, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .f32⟩
  | .local _ .vmem, ⟨14, _⟩ => ⟨S256x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x256, .f32⟩
  | .local _ .vmem, ⟨23, _⟩ => ⟨S64x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x128, .f32⟩
  | .local _ .vmem, ⟨32, _⟩ => ⟨S256x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  transposes_S64x256_S256x64_1_0 : S64x256.Transposes [1, 0] S256x64
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  transposes_S256x64_S64x256_1_0 : S256x64.Transposes [1, 0] S64x256
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S128x256_S256x128_1_0 : S128x256.Transposes [1, 0] S256x128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩
abbrev S800000x64 : Shape := ⟨2, ![800000, 64]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256x128, .f32⟩
  | 4 => ⟨S256, .f32⟩
  | 5 => ⟨S64x256, .f32⟩
  | 6 => ⟨S64x256, .f32⟩
  | 7 => ⟨S64, .f32⟩
  | 8 => ⟨S256x64, .f32⟩
  | 9 => ⟨S256x64, .f32⟩
  | 10 => ⟨S256, .f32⟩
  | 11 => ⟨S128x256, .f32⟩
  | 12 => ⟨S128x256, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S128x256, .f32⟩
  | 32 => ⟨S50000x256, .f32⟩
  | 33 => ⟨S1x256, .f32⟩
  | 34 => ⟨S50000x256, .f32⟩
  | 35 => ⟨S50000x256, .f32⟩
  | 36 => ⟨S128x256, .f32⟩
  | 37 => ⟨S50000x256, .f32⟩
  | 38 => ⟨S50000x256, .f32⟩
  | 39 => ⟨S_, .f32⟩
  | 40 => ⟨S_, .f32⟩
  | 41 => ⟨S50000x256, .f32⟩
  | 42 => ⟨S50000x256, .i1⟩
  | 43 => ⟨S_, .f32⟩
  | 44 => ⟨S50000x256, .f32⟩
  | 45 => ⟨S50000x256, .f32⟩
  | 46 => ⟨S50000x256, .f32⟩
  | 47 => ⟨S1x800000, .i32⟩
  | 48 => ⟨S800000, .i32⟩
  | 49 => ⟨S1x800000, .i32⟩
  | 50 => ⟨S800000, .i32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S256x64, .f32⟩
  | 65 => ⟨S50000x64, .f32⟩
  | 66 => ⟨S1x64, .f32⟩
  | 67 => ⟨S50000x64, .f32⟩
  | 68 => ⟨S50000x64, .f32⟩
  | 69 => ⟨S256x64, .f32⟩
  | 70 => ⟨S50000x64, .f32⟩
  | 71 => ⟨S50000x64, .f32⟩
  | 72 => ⟨S_, .f32⟩
  | 73 => ⟨S_, .f32⟩
  | 74 => ⟨S50000x64, .f32⟩
  | 75 => ⟨S50000x64, .i1⟩
  | 76 => ⟨S_, .f32⟩
  | 77 => ⟨S50000x64, .f32⟩
  | 78 => ⟨S50000x64, .f32⟩
  | 79 => ⟨S50000x64, .f32⟩
  | 80 => ⟨S1x800000, .i32⟩
  | 81 => ⟨S800000, .i32⟩
  | 82 => ⟨S1x800000, .i32⟩
  | 83 => ⟨S800000, .i32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S64x256, .f32⟩
  | 98 => ⟨S50000x256, .f32⟩
  | 99 => ⟨S1x256, .f32⟩
  | 100 => ⟨S50000x256, .f32⟩
  | 101 => ⟨S50000x256, .f32⟩
  | 102 => ⟨S64x256, .f32⟩
  | 103 => ⟨S50000x256, .f32⟩
  | 104 => ⟨S50000x256, .f32⟩
  | 105 => ⟨S_, .f32⟩
  | 106 => ⟨S_, .f32⟩
  | 107 => ⟨S50000x256, .f32⟩
  | 108 => ⟨S50000x256, .i1⟩
  | 109 => ⟨S_, .f32⟩
  | 110 => ⟨S50000x256, .f32⟩
  | 111 => ⟨S50000x256, .f32⟩
  | 112 => ⟨S50000x256, .f32⟩
  | 113 => ⟨S1x800000, .i32⟩
  | 114 => ⟨S800000, .i32⟩
  | 115 => ⟨S1x800000, .i32⟩
  | 116 => ⟨S800000, .i32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .f32⟩
  | 126 => ⟨S_, .f32⟩
  | 127 => ⟨S50000x256, .f32⟩
  | _ => ⟨S50000x128, .f32⟩

abbrev hbmTy0_1 (i : Nat) : BufTy := match i % 128 with
  | 0 => ⟨S800000x1, .i32⟩
  | 1 => ⟨S50000x256, .f32⟩
  | 2 => ⟨S256x128, .f32⟩
  | 3 => ⟨S50000x128, .f32⟩
  | 4 => ⟨S1x128, .f32⟩
  | 5 => ⟨S50000x128, .f32⟩
  | 6 => ⟨S50000x128, .f32⟩
  | 7 => ⟨S256x128, .f32⟩
  | 8 => ⟨S50000x128, .f32⟩
  | 9 => ⟨S50000x128, .f32⟩
  | 10 => ⟨S_, .f32⟩
  | 11 => ⟨S_, .f32⟩
  | 12 => ⟨S50000x128, .f32⟩
  | 13 => ⟨S50000x128, .i1⟩
  | 14 => ⟨S_, .f32⟩
  | 15 => ⟨S50000x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_6 : Ref sig .tc := ⟨.hbm, 84, rfl⟩
abbrev main_v50 : Ref sig .tc := ⟨.hbm, 85, rfl⟩
abbrev main_v51 : Ref sig .tc := ⟨.hbm, 86, rfl⟩
abbrev main_c_7 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_9 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_10 : Ref sig .tc := ⟨.hbm, 117, rfl⟩
abbrev main_v73 : Ref sig .tc := ⟨.hbm, 118, rfl⟩
abbrev main_v74 : Ref sig .tc := ⟨.hbm, 119, rfl⟩
abbrev main_c_11 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_12 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_13 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_v91 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S256x64_S64x256_1_0 : S256x64.Transposes [1, 0] S64x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  One graph-convolution layer, read at an index of the extended reals.

  For node features `h : [n, dᵢ]`, neighbour sums `agg : [n, dᵢ]`, the two weight matrices already transposed
  `wT, rT : [dᵢ, dₒ]` and the bias as a one-row matrix `b2 : [1, dₒ]`, entry `(p, q)` of the layer is

      lrelu ((Σ_κ agg[p, κ] · wT[κ, q]  +  Σ_κ h[p, κ] · rT[κ, q])  +  b2[0, q]),

  where `lrelu x` is `x` when `0 ≤ x` and `s · x` otherwise, `s` the binary32 value of the slope's word.
  The same entry with the bias added before the second product,
  `(Σ agg · wT + b2) + Σ h · rT`, is the same extended real: addition of extended reals is commutative and
  associative (`pre_comm`), so no finiteness of the entries is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The leaky rectifier on the extended reals: the comparison with the zero word, the product with the slope's word. -/
def lrelu (x : EReal) : EReal :=
  Scalar.select (FloatOps.cmpf (F := Ideal) (φ := .f32) .oge x (Ideal.ofBits .f32 0x00000000#32)) x
    (Ideal.ofBits .f32 0x3C23D70A#32 * x)

/-- The two products of row `p` with column `q`, summed over the inner axis. -/
def relSum {n di dz : Nat} (agg : (⟨2, ![n, di]⟩ : Shape).Idx → EReal) (wT : (⟨2, ![di, dz]⟩ : Shape).Idx → EReal)
    (p : Fin n) (q : Fin dz) : EReal :=
  ∑ κ : Fin di, agg (ix2 p κ) * wT (ix2 κ q)

/-- The entry before the rectifier, the bias added last. -/
def pre {n di dz : Nat} (agg h : (⟨2, ![n, di]⟩ : Shape).Idx → EReal) (wT rT : (⟨2, ![di, dz]⟩ : Shape).Idx → EReal)
    (b2 : (⟨2, ![1, dz]⟩ : Shape).Idx → EReal) (p : Fin n) (q : Fin dz) : EReal :=
  (relSum agg wT p q + relSum h rT p q) + b2 (ix2 (0 : Fin 1) q)

/-- The same entry with the bias added between the two products. -/
def pre' {n di dz : Nat} (agg h : (⟨2, ![n, di]⟩ : Shape).Idx → EReal) (wT rT : (⟨2, ![di, dz]⟩ : Shape).Idx → EReal)
    (b2 : (⟨2, ![1, dz]⟩ : Shape).Idx → EReal) (p : Fin n) (q : Fin dz) : EReal :=
  (relSum agg wT p q + b2 (ix2 (0 : Fin 1) q)) + relSum h rT p q

/-- The two orders of the three-term sum agree: `(a + c) + b = (a + b) + c` in a commutative additive monoid. -/
theorem pre_comm {n di dz : Nat} (agg h : (⟨2, ![n, di]⟩ : Shape).Idx → EReal) (wT rT : (⟨2, ![di, dz]⟩ : Shape).Idx → EReal)
    (b2 : (⟨2, ![1, dz]⟩ : Shape).Idx → EReal) (p : Fin n) (q : Fin dz) :
    pre' agg h wT rT b2 p q = pre agg h wT rT b2 p q := by
  unfold pre pre'
  exact add_right_comm _ _ _

/-- The layer as one function of whole arrays, index by index. -/
def layer {n di dz : Nat} (agg h : (⟨2, ![n, di]⟩ : Shape).Idx → EReal) (wT rT : (⟨2, ![di, dz]⟩ : Shape).Idx → EReal)
    (b2 : (⟨2, ![1, dz]⟩ : Shape).Idx → EReal) : (⟨2, ![n, dz]⟩ : Shape).Idx → EReal :=
  fun i => lrelu (pre agg h wT rT b2 ⟨(i 0).val, idx2_lt0 i⟩ ⟨(i 1).val, idx2_lt1 i⟩)

end Cert.Spec

end
-- ==== Proof.Fns.lean ====
/-
  The functions of whole arrays that both programs apply, named once.

  Both programs take the edge list `e : [2, E]` apart into its source row `src e` and its target row `dst e`, wrap a
  negative source index by the node count (`srcn`), gather the rows of the node features `h` at the wrapped sources and
  add each gathered row into the row of its target: `agg h s d`, the neighbour sums, one function of `(h, s, d)` per
  feature width (128, 256, 64). The gather and the scatter-add are never opened here: whatever they compute, the two
  programs apply the same ones to the same operands.

  A layer is then `Cert.Spec.layer` of the neighbour sums, the features, the two transposed weight matrices and the
  bias as a one-row matrix: `step0 … step3` for the four widths (128→256, 256→64, 64→256, 256→128). The kernel's four
  pallas_calls compute these block by block; the reference computes, per layer, `core0 … core3`: two matrix products of
  whole arrays, the bias broadcast over the rows and added between them, and the leaky rectifier as a comparison, a
  product with the slope and a select (stated for any float values: nothing in them is particular to the extended reals).
-/
import proofs.«152855_j82635170775050_1_alg».proof.Proof.Gen.KernelIdeal
import proofs.«152855_j82635170775050_1_alg».proof.Proof.Gen.ReferenceIdeal
import proofs.«152855_j82635170775050_1_alg».proof.Proof.Spec

noncomputable section

namespace Cert.KernelIdeal.Fns

open Cert.KernelIdeal Cert.KernelIdeal.Gen Idealize.ShloMosaic

variable {F : FTy → Type} [FloatOps F]

/-- Row 0 of the edge list: the source node of every edge. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list: the target node of every edge. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A negative source index counts from the end: the node count is added to it. -/
def srcn (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- Neighbour sums of 128-wide features: the rows of `h` at the sources, added into the rows of their targets. -/
def agg128 (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0 s))

/-- Neighbour sums of 256-wide features. -/
def agg256 (h : (⟨S50000x256, .f32⟩ : BufTy).Contents (Elt F)) (s d : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0 s))

/-- Neighbour sums of 64-wide features. -/
def agg64 (h : (⟨S50000x64, .f32⟩ : BufTy).Contents (Elt F)) (s d : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (Host.gather gather_S50000x64_S800000x1_S800000x64_1_0_n_n_0_1_164 h
      (broadcastInDim S800000x1 ![0] bcast_S800000_S800000x1_0 s))

/-- The weight matrices as the products take them: transposed, the inner axis first. -/
def tr0 (w : (⟨S256x128, .f32⟩ : BufTy).Contents (Elt F)) : (⟨S128x256, .f32⟩ : BufTy).Contents (Elt F) :=
  transpose S128x256 [1, 0] w transposes_S256x128_S128x256_1_0
def tr1 (w : (⟨S64x256, .f32⟩ : BufTy).Contents (Elt F)) : (⟨S256x64, .f32⟩ : BufTy).Contents (Elt F) :=
  transpose S256x64 [1, 0] w transposes_S64x256_S256x64_1_0
def tr2 (w : (⟨S256x64, .f32⟩ : BufTy).Contents (Elt F)) : (⟨S64x256, .f32⟩ : BufTy).Contents (Elt F) :=
  transpose S64x256 [1, 0] w transposes_S256x64_S64x256_1_0
def tr3 (w : (⟨S128x256, .f32⟩ : BufTy).Contents (Elt F)) : (⟨S256x128, .f32⟩ : BufTy).Contents (Elt F) :=
  transpose S256x128 [1, 0] w transposes_S128x256_S256x128_1_0

/-- The bias as a one-row matrix. -/
def row256 (b : (⟨S256, .f32⟩ : BufTy).Contents (Elt F)) : (⟨S1x256, .f32⟩ : BufTy).Contents (Elt F) :=
  shapeCast S1x256 b shapeCasts_S256_S1x256
def row64 (b : (⟨S64, .f32⟩ : BufTy).Contents (Elt F)) : (⟨S1x64, .f32⟩ : BufTy).Contents (Elt F) :=
  shapeCast S1x64 b shapeCasts_S64_S1x64
def row128 (b : (⟨S128, .f32⟩ : BufTy).Contents (Elt F)) : (⟨S1x128, .f32⟩ : BufTy).Contents (Elt F) :=
  shapeCast S1x128 b shapeCasts_S128_S1x128

/-! ## The four layers, at the extended reals -/

/-- Layer 0 (128 → 256) of features `h`, edges `e`, weights `W`, `R` and bias `b`. -/
def step0 (h : (⟨S50000x128, .f32⟩ : BufTy).Contents (Elt Ideal)) (e : (⟨S2x800000, .i32⟩ : BufTy).Contents (Elt Ideal))
    (W R : (⟨S256x128, .f32⟩ : BufTy).Contents (Elt Ideal)) (b : (⟨S256, .f32⟩ : BufTy).Contents (Elt Ideal)) :
    (⟨S50000x256, .f32⟩ : BufTy).Contents (Elt Ideal) :=
  Cert.Spec.layer (n := 50000) (di := 128) (dz := 256) (agg128 h (srcn (src e)) (dst e)) h (tr0 W) (tr0 R) (row256 b)

/-- Layer 1 (256 → 64). -/
def step1 (h : (⟨S50000x256, .f32⟩ : BufTy).Contents (Elt Ideal)) (e : (⟨S2x800000, .i32⟩ : BufTy).Contents (Elt Ideal))
    (W R : (⟨S64x256, .f32⟩ : BufTy).Contents (Elt Ideal)) (b : (⟨S64, .f32⟩ : BufTy).Contents (Elt Ideal)) :
    (⟨S50000x64, .f32⟩ : BufTy).Contents (Elt Ideal) :=
  Cert.Spec.layer (n := 50000) (di := 256) (dz := 64) (agg256 h (srcn (src e)) (dst e)) h (tr1 W) (tr1 R) (row64 b)

/-- Layer 2 (64 → 256). -/
def step2 (h : (⟨S50000x64, .f32⟩ : BufTy).Contents (Elt Ideal)) (e : (⟨S2x800000, .i32⟩ : BufTy).Contents (Elt Ideal))
    (W R : (⟨S256x64, .f32⟩ : BufTy).Contents (Elt Ideal)) (b : (⟨S256, .f32⟩ : BufTy).Contents (Elt Ideal)) :
    (⟨S50000x256, .f32⟩ : BufTy).Contents (Elt Ideal) :=
  Cert.Spec.layer (n := 50000) (di := 64) (dz := 256) (agg64 h (srcn (src e)) (dst e)) h (tr2 W) (tr2 R) (row256 b)

/-- Layer 3 (256 → 128). -/
def step3 (h : (⟨S50000x256, .f32⟩ : BufTy).Contents (Elt Ideal)) (e : (⟨S2x800000, .i32⟩ : BufTy).Contents (Elt Ideal))
    (W R : (⟨S128x256, .f32⟩ : BufTy).Contents (Elt Ideal)) (b : (⟨S128, .f32⟩ : BufTy).Contents (Elt Ideal)) :
    (⟨S50000x128, .f32⟩ : BufTy).Contents (Elt Ideal) :=
  Cert.Spec.layer (n := 50000) (di := 256) (dz := 128) (agg256 h (srcn (src e)) (dst e)) h (tr3 W) (tr3 R) (row128 b)

/-! ## The two results -/

/-- The embedding: layers 0 and 1 of the input features. -/
def netEmb (x : (⟨S50000x128, .f32⟩ : BufTy).Contents (Elt Ideal)) (e : (⟨S2x800000, .i32⟩ : BufTy).Contents (Elt Ideal))
    (W0 R0 : (⟨S256x128, .f32⟩ : BufTy).Contents (Elt Ideal)) (b0 : (⟨S256, .f32⟩ : BufTy).Contents (Elt Ideal))
    (W1 R1 : (⟨S64x256, .f32⟩ : BufTy).Contents (Elt Ideal)) (b1 : (⟨S64, .f32⟩ : BufTy).Contents (Elt Ideal)) : (⟨S50000x64, .f32⟩ : BufTy).Contents (Elt Ideal) :=
  step1 (step0 x e W0 R0 b0) e W1 R1 b1

/-- The output: layers 2 and 3 of the embedding. -/
def netOut (x : (⟨S50000x128, .f32⟩ : BufTy).Contents (Elt Ideal)) (e : (⟨S2x800000, .i32⟩ : BufTy).Contents (Elt Ideal))
    (W0 R0 : (⟨S256x128, .f32⟩ : BufTy).Contents (Elt Ideal)) (b0 : (⟨S256, .f32⟩ : BufTy).Contents (Elt Ideal))
    (W1 R1 : (⟨S64x256, .f32⟩ : BufTy).Contents (Elt Ideal)) (b1 : (⟨S64, .f32⟩ : BufTy).Contents (Elt Ideal))
    (W2 R2 : (⟨S256x64, .f32⟩ : BufTy).Contents (Elt Ideal)) (b2 : (⟨S256, .f32⟩ : BufTy).Contents (Elt Ideal))
    (W3 R3 : (⟨S128x256, .f32⟩ : BufTy).Contents (Elt Ideal)) (b3 : (⟨S128, .f32⟩ : BufTy).Contents (Elt Ideal)) : (⟨S50000x128, .f32⟩ : BufTy).Contents (Elt Ideal) :=
  step3 (step2 (netEmb x e W0 R0 b0 W1 R1 b1) e W2 R2 b2) e W3 R3 b3

end Cert.KernelIdeal.Fns

namespace Cert.ReferenceIdeal.Fns

open Cert.ReferenceIdeal Cert.ReferenceIdeal.Gen Idealize.ShloMosaic

variable {F : FTy → Type} [FloatOps F]

/-! ## The reference's layer, as it computes it from the neighbour sums: the bias between the two products -/

/-- Width 128 → 256 over the reference's own product record. -/
def core0 (agg h : (⟨S50000x128, .f32⟩ : BufTy).Contents (Elt F)) (wT rT : (⟨S128x256, .f32⟩ : BufTy).Contents (Elt F))
    (b : (⟨S256, .f32⟩ : BufTy).Contents (Elt F)) : (⟨S50000x256, .f32⟩ : BufTy).Contents (Elt F) :=
  let x : (⟨S50000x256, .f32⟩ : BufTy).Contents (Elt F) :=
    addf (F := F) (addf (F := F) (Host.dotGeneral (F := F) (φ₁ := .f32) (φ₂ := .f32) dot_S50000x128_S128x256_S50000x256_1_0_0_1_n_n none agg wT)
        (broadcastInDim S50000x256 ![0, 1] bcast_S1x256_S50000x256_0_1 (broadcastInDim S1x256 ![1] bcast_S256_S1x256_1 b)))
      (Host.dotGeneral (F := F) (φ₁ := .f32) (φ₂ := .f32) dot_S50000x128_S128x256_S50000x256_1_0_0_1_n_n none h rT)
  select (cmpf (F := F) .oge x (broadcastInDim S50000x256 ![] bcast_S_S50000x256 (constant S_ .f32 0x00000000#32))) x
    (mulf (F := F) (broadcastInDim S50000x256 ![] bcast_S_S50000x256 (id (constant (F := F) S_ .f32 0x3C23D70A#32))) x)

/-- Width 256 → 64. -/
def core1 (agg h : (⟨S50000x256, .f32⟩ : BufTy).Contents (Elt F)) (wT rT : (⟨S256x64, .f32⟩ : BufTy).Contents (Elt F))
    (b : (⟨S64, .f32⟩ : BufTy).Contents (Elt F)) : (⟨S50000x64, .f32⟩ : BufTy).Contents (Elt F) :=
  let x : (⟨S50000x64, .f32⟩ : BufTy).Contents (Elt F) :=
    addf (F := F) (addf (F := F) (Host.dotGeneral (F := F) (φ₁ := .f32) (φ₂ := .f32) dot_S50000x256_S256x64_S50000x64_1_0_0_1_n_n none agg wT)
        (broadcastInDim S50000x64 ![0, 1] bcast_S1x64_S50000x64_0_1 (broadcastInDim S1x64 ![1] bcast_S64_S1x64_1 b)))
      (Host.dotGeneral (F := F) (φ₁ := .f32) (φ₂ := .f32) dot_S50000x256_S256x64_S50000x64_1_0_0_1_n_n none h rT)
  select (cmpf (F := F) .oge x (broadcastInDim S50000x64 ![] bcast_S_S50000x64 (constant S_ .f32 0x00000000#32))) x
    (mulf (F := F) (broadcastInDim S50000x64 ![] bcast_S_S50000x64 (id (constant (F := F) S_ .f32 0x3C23D70A#32))) x)

/-- Width 64 → 256. -/
def core2 (agg h : (⟨S50000x64, .f32⟩ : BufTy).Contents (Elt F)) (wT rT : (⟨S64x256, .f32⟩ : BufTy).Contents (Elt F))
    (b : (⟨S256, .f32⟩ : BufTy).Contents (Elt F)) : (⟨S50000x256, .f32⟩ : BufTy).Contents (Elt F) :=
  let x : (⟨S50000x256, .f32⟩ : BufTy).Contents (Elt F) :=
    addf (F := F) (addf (F := F) (Host.dotGeneral (F := F) (φ₁ := .f32) (φ₂ := .f32) dot_S50000x64_S64x256_S50000x256_1_0_0_1_n_n none agg wT)
        (broadcastInDim S50000x256 ![0, 1] bcast_S1x256_S50000x256_0_1 (broadcastInDim S1x256 ![1] bcast_S256_S1x256_1 b)))
      (Host.dotGeneral (F := F) (φ₁ := .f32) (φ₂ := .f32) dot_S50000x64_S64x256_S50000x256_1_0_0_1_n_n none h rT)
  select (cmpf (F := F) .oge x (broadcastInDim S50000x256 ![] bcast_S_S50000x256 (constant S_ .f32 0x00000000#32))) x
    (mulf (F := F) (broadcastInDim S50000x256 ![] bcast_S_S50000x256 (id (constant (F := F) S_ .f32 0x3C23D70A#32))) x)

/-- Width 256 → 128. -/
def core3 (agg h : (⟨S50000x256, .f32⟩ : BufTy).Contents (Elt F)) (wT rT : (⟨S256x128, .f32⟩ : BufTy).Contents (Elt F))
    (b : (⟨S128, .f32⟩ : BufTy).Contents (Elt F)) : (⟨S50000x128, .f32⟩ : BufTy).Contents (Elt F) :=
  let x : (⟨S50000x128, .f32⟩ : BufTy).Contents (Elt F) :=
    addf (F := F) (addf (F := F) (Host.dotGeneral (F := F) (φ₁ := .f32) (φ₂ := .f32) dot_S50000x256_S256x128_S50000x128_1_0_0_1_n_n none agg wT)
        (broadcastInDim S50000x128 ![0, 1] bcast_S1x128_S50000x128_0_1 (broadcastInDim S1x128 ![1] bcast_S128_S1x128_1 b)))
      (Host.dotGeneral (F := F) (φ₁ := .f32) (φ₂ := .f32) dot_S50000x256_S256x128_S50000x128_1_0_0_1_n_n none h rT)
  select (cmpf (F := F) .oge x (broadcastInDim S50000x128 ![] bcast_S_S50000x128 (constant S_ .f32 0x00000000#32))) x
    (mulf (F := F) (broadcastInDim S50000x128 ![] bcast_S_S50000x128 (id (constant (F := F) S_ .f32 0x3C23D70A#32))) x)

/-! ## The reference's layers from the features: the same neighbour sums and transposes, then its own core -/

def rstep0 (h : (⟨S50000x128, .f32⟩ : BufTy).Contents (Elt F)) (e : (⟨S2x800000, .i32⟩ : BufTy).Contents (Elt F)) (W R : (⟨S256x128, .f32⟩ : BufTy).Contents (Elt F)) (b : (⟨S256, .f32⟩ : BufTy).Contents (Elt F)) :
    (⟨S50000x256, .f32⟩ : BufTy).Contents (Elt F) :=
  core0 (Cert.KernelIdeal.Fns.agg128 h (Cert.KernelIdeal.Fns.srcn (Cert.KernelIdeal.Fns.src e)) (Cert.KernelIdeal.Fns.dst e)) h (Cert.KernelIdeal.Fns.tr0 W) (Cert.KernelIdeal.Fns.tr0 R) b
def rstep1 (h : (⟨S50000x256, .f32⟩ : BufTy).Contents (Elt F)) (e : (⟨S2x800000, .i32⟩ : BufTy).Contents (Elt F)) (W R : (⟨S64x256, .f32⟩ : BufTy).Contents (Elt F)) (b : (⟨S64, .f32⟩ : BufTy).Contents (Elt F)) :
    (⟨S50000x64, .f32⟩ : BufTy).Contents (Elt F) :=
  core1 (Cert.KernelIdeal.Fns.agg256 h (Cert.KernelIdeal.Fns.srcn (Cert.KernelIdeal.Fns.src e)) (Cert.KernelIdeal.Fns.dst e)) h (Cert.KernelIdeal.Fns.tr1 W) (Cert.KernelIdeal.Fns.tr1 R) b
def rstep2 (h : (⟨S50000x64, .f32⟩ : BufTy).Contents (Elt F)) (e : (⟨S2x800000, .i32⟩ : BufTy).Contents (Elt F)) (W R : (⟨S256x64, .f32⟩ : BufTy).Contents (Elt F)) (b : (⟨S256, .f32⟩ : BufTy).Contents (Elt F)) :
    (⟨S50000x256, .f32⟩ : BufTy).Contents (Elt F) :=
  core2 (Cert.KernelIdeal.Fns.agg64 h (Cert.KernelIdeal.Fns.srcn (Cert.KernelIdeal.Fns.src e)) (Cert.KernelIdeal.Fns.dst e)) h (Cert.KernelIdeal.Fns.tr2 W) (Cert.KernelIdeal.Fns.tr2 R) b
def rstep3 (h : (⟨S50000x256, .f32⟩ : BufTy).Contents (Elt F)) (e : (⟨S2x800000, .i32⟩ : BufTy).Contents (Elt F)) (W R : (⟨S128x256, .f32⟩ : BufTy).Contents (Elt F)) (b : (⟨S128, .f32⟩ : BufTy).Contents (Elt F)) :
    (⟨S50000x128, .f32⟩ : BufTy).Contents (Elt F) :=
  core3 (Cert.KernelIdeal.Fns.agg256 h (Cert.KernelIdeal.Fns.srcn (Cert.KernelIdeal.Fns.src e)) (Cert.KernelIdeal.Fns.dst e)) h (Cert.KernelIdeal.Fns.tr3 W) (Cert.KernelIdeal.Fns.tr3 R) b

end Cert.ReferenceIdeal.Fns

end
-- ==== Proof.KHost.lean ====
/-
  What each host stretch of the kernel's main function leaves in the buffers the next block computation reads.

  Between two block computations the main function runs a short line of whole-array operations: it takes the two rows
  of the edge list apart, wraps the negative source indices by the node count, gathers the feature rows at the sources
  and adds them into the rows of their targets, transposes the two weight matrices and turns the bias into a one-row
  matrix. Each operation writes one buffer and reads earlier ones, so the contents of a buffer after the whole line is
  the composition of the functions on the path that leads to it, applied to the contents the line started from. That
  composition is, term for term, the named function of `Fns` (`src`, `dst`, `srcn`, `agg128`, `agg256`, `agg64`,
  `tr0 … tr3`, `row256`, `row64`, `row128`): the two sides are the same expression. For the neighbour sums the
  gather and the scatter-add stay closed: both sides apply the same two functions to the same operands, so nothing
  about what they compute is needed. In the later stretches the source and target rows are read from the buffers the
  first stretch wrote, and the wrap of the sources is recomputed from them.
-/
import proofs.«152855_j82635170775050_1_alg».proof.Proof.Gen.KernelIdeal.Launch
import proofs.«152855_j82635170775050_1_alg».proof.Proof.Fns
import Idealize.ShloMosaic.Lib.StableHlo.Run

noncomputable section

namespace Cert.KernelIdeal.Host

open Cert.KernelIdeal Cert.KernelIdeal.Gen Cert.KernelIdeal.Fns
open Idealize.ShloMosaic Idealize.ShloMosaic.TcCoe Idealize.SL.Sem Idealize.ShloMosaic.StableHlo

variable {F : FTy → Type} [FloatOps F] (W : Valuation τ sig (Elt F))

/-! ## The stretch before pallas_call 0 -/
theorem h0_v1 : after (hostOps0 (F := F)) W (Proc.devRef .tc main_v1) = src (W (Proc.devRef .tc main_arg1)) := by
  after_results
  rfl
theorem h0_v3 : after (hostOps0 (F := F)) W (Proc.devRef .tc main_v3) = dst (W (Proc.devRef .tc main_arg1)) := by
  after_results
  rfl
-- the gather and the scatter-add stay closed: the same two functions of the same operands on both sides
attribute [local irreducible] Host.gather Host.scatterAdd in
theorem h0_v13 : after (hostOps0 (F := F)) W (Proc.devRef .tc main_v13)
    = agg128 (W (Proc.devRef .tc main_arg0)) (srcn (src (W (Proc.devRef .tc main_arg1)))) (dst (W (Proc.devRef .tc main_arg1))) := by
  after_results
  rfl
theorem h0_v14 : after (hostOps0 (F := F)) W (Proc.devRef .tc main_v14) = tr0 (W (Proc.devRef .tc main_arg2)) := by
  after_results
  rfl
theorem h0_v15 : after (hostOps0 (F := F)) W (Proc.devRef .tc main_v15) = tr0 (W (Proc.devRef .tc main_arg3)) := by
  after_results
  rfl
theorem h0_v16 : after (hostOps0 (F := F)) W (Proc.devRef .tc main_v16) = row256 (W (Proc.devRef .tc main_arg4)) := by
  after_results
  rfl

/-! ## The stretch before pallas_call 1 -/
-- the gather and the scatter-add stay closed: the same two functions of the same operands on both sides
attribute [local irreducible] Host.gather Host.scatterAdd in
theorem h1_v27 : after (hostOps1 (F := F)) W (Proc.devRef .tc main_v27)
    = agg256 (W (Proc.devRef .tc main_v17)) (srcn (W (Proc.devRef .tc main_v1))) (W (Proc.devRef .tc main_v3)) := by
  after_results_simp
  rfl
theorem h1_v28 : after (hostOps1 (F := F)) W (Proc.devRef .tc main_v28) = tr1 (W (Proc.devRef .tc main_arg5)) := by
  after_results
  rfl
theorem h1_v29 : after (hostOps1 (F := F)) W (Proc.devRef .tc main_v29) = tr1 (W (Proc.devRef .tc main_arg6)) := by
  after_results
  rfl
theorem h1_v30 : after (hostOps1 (F := F)) W (Proc.devRef .tc main_v30) = row64 (W (Proc.devRef .tc main_arg7)) := by
  after_results
  rfl

/-! ## The stretch before pallas_call 2 -/
-- the gather and the scatter-add stay closed: the same two functions of the same operands on both sides
attribute [local irreducible] Host.gather Host.scatterAdd in
theorem h2_v41 : after (hostOps2 (F := F)) W (Proc.devRef .tc main_v41)
    = agg64 (W (Proc.devRef .tc main_v31)) (srcn (W (Proc.devRef .tc main_v1))) (W (Proc.devRef .tc main_v3)) := by
  after_results_simp
  rfl
theorem h2_v42 : after (hostOps2 (F := F)) W (Proc.devRef .tc main_v42) = tr2 (W (Proc.devRef .tc main_arg8)) := by
  after_results
  rfl
theorem h2_v43 : after (hostOps2 (F := F)) W (Proc.devRef .tc main_v43) = tr2 (W (Proc.devRef .tc main_arg9)) := by
  after_results
  rfl
theorem h2_v44 : after (hostOps2 (F := F)) W (Proc.devRef .tc main_v44) = row256 (W (Proc.devRef .tc main_arg10)) := by
  after_results
  rfl

/-! ## The stretch before pallas_call 3 -/
-- the gather and the scatter-add stay closed: the same two functions of the same operands on both sides
attribute [local irreducible] Host.gather Host.scatterAdd in
theorem h3_v55 : after (hostOps3 (F := F)) W (Proc.devRef .tc main_v55)
    = agg256 (W (Proc.devRef .tc main_v45)) (srcn (W (Proc.devRef .tc main_v1))) (W (Proc.devRef .tc main_v3)) := by
  after_results_simp
  rfl
theorem h3_v56 : after (hostOps3 (F := F)) W (Proc.devRef .tc main_v56) = tr3 (W (Proc.devRef .tc main_arg11)) := by
  after_results
  rfl
theorem h3_v57 : after (hostOps3 (F := F)) W (Proc.devRef .tc main_v57) = tr3 (W (Proc.devRef .tc main_arg12)) := by
  after_results
  rfl
theorem h3_v58 : after (hostOps3 (F := F)) W (Proc.devRef .tc main_v58) = row128 (W (Proc.devRef .tc main_arg13)) := by
  after_results
  rfl

end Cert.KernelIdeal.Host

end
-- ==== Proof.LibPlainDot.lean ====
/-
  A matrix product of an `M × K` by a `K × N` array, read at an index of the extended reals.

  With the plain dimension numbers (contract the left operand's axis 1 with the right operand's axis 0, no batch
  axis), entry `(p, q)` of the product is `Σ_{κ < K} l[p, κ] · r[κ, q]`: the contraction's index set is its one
  coordinate's range, and at contraction position `κ` the operands are read at `(p, κ)` and `(κ, q)`. This holds for
  a kernel's product into a zero accumulator and for a host product alike, whatever `M`, `K`, `N` are.
-/
import Idealize.ShloMosaic.PureOps.Ideal.Laws
import Idealize.ShloMosaic.Lib.ValueIdx

namespace Cert.Lib

open Idealize.ShloMosaic Idealize.ShloMosaic.ValueIdx

/-- At contraction position `κ` a plain product reads its left operand at `(p, κ)`. -/
theorem plain_lhsIdx (M K N : Nat) (j : (⟨2, ![M, N]⟩ : Shape).Idx) (κ : Fin K) :
    (DotDims.plain M K N).lhsIdx j ((contrEquiv1 (DotDims.plain M K N) K rfl rfl).symm κ)
      = ix2 (⟨(j 0).val, idx2_lt0 j⟩ : Fin M) κ := by
  have hk := contrEquiv1_symm_val (DotDims.plain M K N) K rfl rfl κ
  funext a
  apply Fin.ext
  match a with
  | ⟨0, _⟩ => rfl
  | ⟨1, _⟩ => exact ((DotDims.plain M K N).lhsIdx_val_of_single rfl j _).trans hk

/-- At contraction position `κ` a plain product reads its right operand at `(κ, q)`. -/
theorem plain_rhsIdx (M K N : Nat) (j : (⟨2, ![M, N]⟩ : Shape).Idx) (κ : Fin K) :
    (DotDims.plain M K N).rhsIdx j ((contrEquiv1 (DotDims.plain M K N) K rfl rfl).symm κ)
      = ix2 κ (⟨(j 1).val, idx2_lt1 j⟩ : Fin N) := by
  have hk := contrEquiv1_symm_val (DotDims.plain M K N) K rfl rfl κ
  funext a
  apply Fin.ext
  match a with
  | ⟨0, _⟩ => exact ((DotDims.plain M K N).rhsIdx_val_of_single rfl j _).trans hk
  | ⟨1, _⟩ => rfl

/-- The sum over a plain product's contraction index set is the sum over the inner axis' range. -/
theorem plain_sum {M K N : Nat} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k)
      = ∑ κ : Fin K, l (ix2 (⟨(j 0).val, idx2_lt0 j⟩ : Fin M) κ) * r (ix2 κ (⟨(j 1).val, idx2_lt1 j⟩ : Fin N)) := by
  subst hd
  rw [← Equiv.sum_comp (contrEquiv1 (DotDims.plain M K N) K rfl rfl).symm]
  exact Finset.sum_congr rfl fun κ _ => by rw [plain_lhsIdx, plain_rhsIdx]

/-- A kernel's plain product into the zero accumulator, at an index. -/
theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j
      = ∑ κ : Fin K, l (ix2 (⟨(j 0).val, idx2_lt0 j⟩ : Fin M) κ) * r (ix2 κ (⟨(j 1).val, idx2_lt1 j⟩ : Fin N)) :=
  (Ideal.matmul_constant_zero_apply d prec l r j).trans (plain_sum d hd l r j)

/-- A host's plain product, at an index. -/
theorem dotGeneral_plain_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j
      = ∑ κ : Fin K, l (ix2 (⟨(j 0).val, idx2_lt0 j⟩ : Fin M) κ) * r (ix2 κ (⟨(j 1).val, idx2_lt1 j⟩ : Fin N)) :=
  (Ideal.dotGeneral_apply d prec sched l r j).trans (plain_sum d hd l r j)

end Cert.Lib
-- ==== Proof.Pay.lean ====
/-
  What one grid point of each of the four layers stores, read at row `r` and column `q` of its block.

  Each layer's stored value is, entry by entry, the leaky rectifier of
      (Σ_κ agg[r, κ] · wT[κ, q]  +  Σ_κ h[r, κ] · rT[κ, q])  +  b[0, q].
  On the extended reals a change of float format is the identity and a reshape to the same shape is the identity, so
  the two products into zero accumulators are the two plain sums over the inner axis; the one-row bias broadcast over
  the rows is read at row `0` of its column; and the comparison with the splat of the zero word, selecting between the
  entry and the slope word's splat times the entry, is the rectifier `Cert.Spec.lrelu` of that entry. The four layers
  differ only in their sizes, so the two facts are stated once for any `M × K` by `K × N` product.
-/
import proofs.«152855_j82635170775050_1_alg».proof.Proof.Gen.KernelIdeal.Skeleton
import proofs.«152855_j82635170775050_1_alg».proof.Proof.Spec
import proofs.«152855_j82635170775050_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The rectifier's shell read at an index: the comparison with the splat of the zero word selects between the entry and
    the slope word's splat times the entry, which is the leaky rectifier of the entry. -/
theorem lrelu_shell {s : Shape} (P : FVec Ideal s .f32) (i : s.Idx) :
    select (cmpf .oge P (broadcast s (FloatOps.ofBits (F := Ideal) .f32 0x00000000#32))) P
        (mulf (broadcast s (FloatOps.ofBits (F := Ideal) .f32 0x3C23D70A#32)) P) i
      = Cert.Spec.lrelu (P i) := rfl

/-- The entry before the rectifier: two plain products into zero accumulators (a change of format is the identity), their
    sum, and the one-row bias read at row `0` of its column. -/
theorem pre_shell {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩) (ht : FTy.bits .bf16 < FTy.bits .f32)
    (x0 x1 : FVec Ideal ⟨2, ![M, K]⟩ .f32) (x2 x3 : FVec Ideal ⟨2, ![K, N]⟩ .f32) (x4 : FVec Ideal ⟨2, ![1, N]⟩ .f32)
    (r : Fin M) (q : Fin N) :
    addf (addf (matmul d none (truncf .bf16 x0 ht) (truncf .bf16 x2 ht) (constant (F := Ideal) ⟨2, ![M, N]⟩ .f32 0x00000000#32))
               (matmul d none (truncf .bf16 x1 ht) (truncf .bf16 x3 ht) (constant (F := Ideal) ⟨2, ![M, N]⟩ .f32 0x00000000#32)))
         (broadcastTo ⟨2, ![M, N]⟩ x4 hb) (ix2 r q)
      = Cert.Spec.pre x0 x1 x2 x3 x4 r q := by
  have hB : broadcastTo ⟨2, ![M, N]⟩ x4 hb (ix2 r q) = x4 (ix2 (0 : Fin 1) q) :=
    broadcastTo_apply x4 hb (ix2 r q) (ix2 (0 : Fin 1) q) (fun a => by
      match a with
      | ⟨0, _⟩ => rfl
      | ⟨1, _⟩ =>
        show q.val = if N = 1 then 0 else q.val
        split
        · next h => have := q.isLt; omega
        · rfl)
  have h1 := Cert.Lib.matmul_plain_apply d hd none (truncf .bf16 x0 ht) (truncf .bf16 x2 ht) (ix2 r q)
  have h2 := Cert.Lib.matmul_plain_apply d hd none (truncf .bf16 x1 ht) (truncf .bf16 x3 ht) (ix2 r q)
  exact congrArg₂ (· + ·) (congrArg₂ (· + ·) (h1.trans rfl) (h2.trans rfl)) hB

/-! ## What one grid point stores, read at row `r` and column `q` of its block: the layer's entry of the blocks -/
theorem pay0_apply (x0 x1 : Vec Ideal S2000x128 .f32) (x2 x3 : Vec Ideal S128x256 .f32) (x4 : Vec Ideal S1x256 .f32)
    (r : Fin 2000) (q : Fin 256) :
    k0_pay1 (F := Ideal) x0 x1 x2 x3 x4 (ix2 r q)
      = Cert.Spec.lrelu (Cert.Spec.pre (n := 2000) (di := 128) (dz := 256) x0 x1 x2 x3 x4 r q) := by
  unfold k0_pay1
  simp only [shapeCast_self]
  exact (lrelu_shell _ _).trans (congrArg Cert.Spec.lrelu
    (pre_shell dot_S2000x128_S128x256_S2000x256_1_0_0_1_n_n rfl broadcasts_S1x256_S2000x256 bitsLt_bf16_f32 x0 x1 x2 x3 x4 r q))
theorem pay1_apply (x0 x1 : Vec Ideal S2000x256 .f32) (x2 x3 : Vec Ideal S256x64 .f32) (x4 : Vec Ideal S1x64 .f32)
    (r : Fin 2000) (q : Fin 64) :
    k1_pay1 (F := Ideal) x0 x1 x2 x3 x4 (ix2 r q)
      = Cert.Spec.lrelu (Cert.Spec.pre (n := 2000) (di := 256) (dz := 64) x0 x1 x2 x3 x4 r q) := by
  unfold k1_pay1
  simp only [shapeCast_self]
  exact (lrelu_shell _ _).trans (congrArg Cert.Spec.lrelu
    (pre_shell dot_S2000x256_S256x64_S2000x64_1_0_0_1_n_n rfl broadcasts_S1x64_S2000x64 bitsLt_bf16_f32 x0 x1 x2 x3 x4 r q))
theorem pay2_apply (x0 x1 : Vec Ideal S2000x64 .f32) (x2 x3 : Vec Ideal S64x256 .f32) (x4 : Vec Ideal S1x256 .f32)
    (r : Fin 2000) (q : Fin 256) :
    k2_pay1 (F := Ideal) x0 x1 x2 x3 x4 (ix2 r q)
      = Cert.Spec.lrelu (Cert.Spec.pre (n := 2000) (di := 64) (dz := 256) x0 x1 x2 x3 x4 r q) := by
  unfold k2_pay1
  simp only [shapeCast_self]
  exact (lrelu_shell _ _).trans (congrArg Cert.Spec.lrelu
    (pre_shell dot_S2000x64_S64x256_S2000x256_1_0_0_1_n_n rfl broadcasts_S1x256_S2000x256 bitsLt_bf16_f32 x0 x1 x2 x3 x4 r q))
theorem pay3_apply (x0 x1 : Vec Ideal S2000x256 .f32) (x2 x3 : Vec Ideal S256x128 .f32) (x4 : Vec Ideal S1x128 .f32)
    (r : Fin 2000) (q : Fin 128) :
    k3_pay1 (F := Ideal) x0 x1 x2 x3 x4 (ix2 r q)
      = Cert.Spec.lrelu (Cert.Spec.pre (n := 2000) (di := 256) (dz := 128) x0 x1 x2 x3 x4 r q) := by
  unfold k3_pay1
  simp only [shapeCast_self]
  exact (lrelu_shell _ _).trans (congrArg Cert.Spec.lrelu
    (pre_shell dot_S2000x256_S256x128_S2000x128_1_0_0_1_n_n rfl broadcasts_S1x128_S2000x128 bitsLt_bf16_f32 x0 x1 x2 x3 x4 r q))

end Cert.KernelIdeal.Pay

end
-- ==== Proof.Region0.lean ====
/-
  Graph-convolution layer 0, from row blocks to the whole array.

  The call visits 25 grid points; point t works on rows 2000·t … 2000·t + 1999. Its two row windows (the neighbour
  sums and the node features, both [50000, 128]) hold, at local row r, row 2000·t + r of their arrays; the two weight
  windows ([128, 256]) and the bias window ([1, 256]) have block index (0, 0) at every point and hold their whole
  arrays. What the point writes back has, at (r, q), the layer's entry of those blocks, and that is entry
  (2000·t + r, q) of the layer of the whole arrays: both inner sums run over the same 128 products. Row i of the
  result lies in the block of point i / 2000, so the 25 blocks cover the result, and after the call the result array
  is the layer of the five arrays the call was entered with.
-/
import proofs.«152855_j82635170775050_1_alg».proof.Proof.Gen.KernelIdeal.Frame
import proofs.«152855_j82635170775050_1_alg».proof.Proof.Spec
import proofs.«152855_j82635170775050_1_alg».proof.Proof.Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset (0, 0) is the zero offset. -/
theorem hz : (![0, 0] : Fin 2 → Nat) = fun _ => 0 := funext fun a => by fin_cases a <;> rfl

/-- The block indices at grid point t, for each of the 25 points: the two row windows and the result window are at
    block (t, 0); the two weight windows and the bias window stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-sum block of point t at local index x is the array's entry k whenever k's row is 2000·t + x's row
    and the columns agree: a block's coordinate is block index × block size + the coordinate inside the block. -/
theorem agg_rows (c : Dev nD) (t : Fin cfg0.N) (x : S2000x128.Idx) (k : S50000x128.Idx)
    (hk0 : (k 0).val = 2000 * t.val + (x 0).val) (hk1 : (k 1).val = (x 1).val) :
    (iblk0 (F := Ideal) V c 0 t : Vec Ideal S2000x128 .f32) x = (V c main_v13 : S50000x128.Idx → EReal) k := by
  obtain ⟨e0, e1, -⟩ := idx_facts t
  unfold iblk0
  rw [View.read_apply]
  show V c main_v13 _ = V c main_v13 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The node-feature block of point t, likewise: local row r is row 2000·t + r of the array. -/
theorem feat_rows (c : Dev nD) (t : Fin cfg0.N) (x : S2000x128.Idx) (k : S50000x128.Idx)
    (hk0 : (k 0).val = 2000 * t.val + (x 0).val) (hk1 : (k 1).val = (x 1).val) :
    (iblk0 (F := Ideal) V c 1 t : Vec Ideal S2000x128 .f32) x = (V c main_arg0 : S50000x128.Idx → EReal) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 2000 + 1 * (x 0).val = (k 0).val; rw [e0, hk0]; omega
  | ⟨1, _⟩ => show win0_1.index t 1 * 128 + 1 * (x 1).val = (k 1).val; rw [e1, hk1]; omega

/-- The block of the neighbour weights is the whole matrix at every point: block (0, 0) of an array of one block. -/
theorem wrel_whole (c : Dev nD) (t : Fin cfg0.N) :
    (iblk0 (F := Ideal) V c 2 t : Vec Ideal S128x256 .f32) = (V c main_v14 : S128x256.Idx → EReal) := by
  obtain ⟨-, -, -, -, e0, e1, -⟩ := idx_facts t
  funext y
  unfold iblk0
  rw [View.read_apply]
  show V c main_v14 _ = V c main_v14 y
  congr 1
  funext a
  apply Fin.ext
  match a with
  | ⟨0, _⟩ => show win0_2.index t 0 * 128 + 1 * (y 0).val = (y 0).val; rw [e0]; omega
  | ⟨1, _⟩ => show win0_2.index t 1 * 256 + 1 * (y 1).val = (y 1).val; rw [e1]; omega

/-- The block of the root weights is the whole matrix at every point. -/
theorem wroot_whole (c : Dev nD) (t : Fin cfg0.N) :
    (iblk0 (F := Ideal) V c 3 t : Vec Ideal S128x256 .f32) = (V c main_v15 : S128x256.Idx → EReal) := by
  obtain ⟨-, -, -, -, -, -, e0, e1, -⟩ := idx_facts t
  funext y
  unfold iblk0
  rw [View.read_apply]
  show V c main_v15 _ = V c main_v15 y
  congr 1
  funext a
  apply Fin.ext
  match a with
  | ⟨0, _⟩ => show win0_3.index t 0 * 128 + 1 * (y 0).val = (y 0).val; rw [e0]; omega
  | ⟨1, _⟩ => show win0_3.index t 1 * 256 + 1 * (y 1).val = (y 1).val; rw [e1]; omega

/-- The block of the bias is the whole one-row matrix at every point. -/
theorem bias_whole (c : Dev nD) (t : Fin cfg0.N) :
    (iblk0 (F := Ideal) V c 4 t : Vec Ideal S1x256 .f32) = (V c main_v16 : S1x256.Idx → EReal) := by
  obtain ⟨-, -, -, -, -, -, -, -, e0, e1, -⟩ := idx_facts t
  funext y
  unfold iblk0
  rw [View.read_apply]
  show V c main_v16 _ = V c main_v16 y
  congr 1
  funext a
  apply Fin.ext
  match a with
  | ⟨0, _⟩ => show win0_4.index t 0 * 1 + 1 * (y 0).val = (y 0).val; rw [e0]; omega
  | ⟨1, _⟩ => show win0_4.index t 1 * 256 + 1 * (y 1).val = (y 1).val; rw [e1]; omega

/-- The entry before the rectifier depends on row r of the two row blocks only, on the weights and on the bias: when
    row r of each row block is row p of its array, and the weights and the bias are the whole arrays, entry (r, q)
    of the blocks is entry (p, q) of the arrays — the two inner sums have the same 128 terms. -/
theorem pre_of_blocks (a h : Vec Ideal S2000x128 .f32) (w u : Vec Ideal S128x256 .f32) (b : Vec Ideal S1x256 .f32)
    (A H : S50000x128.Idx → EReal) (W U : S128x256.Idx → EReal) (B : S1x256.Idx → EReal)
    (r : Fin 2000) (q : Fin 256) (p : Fin 50000) (q' : Fin 256)
    (ha : ∀ κ : Fin 128, a (ix2 r κ) = A (ix2 p κ)) (hh : ∀ κ : Fin 128, h (ix2 r κ) = H (ix2 p κ))
    (hw : w = W) (hu : u = U) (hb : b = B) (hq : q = q') :
    Cert.Spec.pre (n := 2000) (di := 128) (dz := 256) a h w u b r q
      = Cert.Spec.pre (n := 50000) (di := 128) (dz := 256) A H W U B p q' := by
  subst hw hu hb hq
  unfold Cert.Spec.pre Cert.Spec.relSum
  simp only [ha, hh]

/-- What point t writes back is block t of the layer of the whole arrays: at (r, q) the point stores the layer's
    entry of its blocks, which is entry (2000·t + r, q) of the layer of the arrays. -/
theorem flushed_eq (c : Dev nD) (t : Fin cfg0.N) :
    (dat0 (F := Ideal) V c).flushed 5 t = ((cfg0.win 5).blk t).view.read (Elt Ideal)
      (Cert.Spec.layer (n := 50000) (di := 128) (dz := 256) (V c main_v13) (V c main_arg0) (V c main_v14) (V c main_v15) (V c main_v16)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨r, q, rfl⟩ : ∃ (r : Fin 2000) (q : Fin 256), j = ix2 r q := ⟨j 0, j 1, eq_ix2 j⟩
  obtain ⟨-, -, -, -, -, -, -, -, -, -, e0, e1⟩ := idx_facts t
  show k0_pay1 (F := Ideal) (iblk0 V c 0 t) (iblk0 V c 1 t) (iblk0 V c 2 t) (iblk0 V c 3 t) (iblk0 V c 4 t) (ix2 r q)
    = Cert.Spec.layer (n := 50000) (di := 128) (dz := 256) (V c main_v13) (V c main_arg0) (V c main_v14) (V c main_v15) (V c main_v16)
        (((cfg0.win 5).blk t).view.emb (ix2 r q))
  refine (Pay.pay0_apply (iblk0 V c 0 t) (iblk0 V c 1 t) (iblk0 V c 2 t) (iblk0 V c 3 t) (iblk0 V c 4 t) r q).trans ?_
  unfold Cert.Spec.layer
  refine congrArg Cert.Spec.lrelu ?_
  have hp : ((((cfg0.win 5).blk t).view.emb (ix2 r q)) 0).val = 2000 * t.val + r.val := by
    show win0_5.index t 0 * 2000 + 1 * r.val = _; rw [e0]; omega
  have hq : ((((cfg0.win 5).blk t).view.emb (ix2 r q)) 1).val = q.val := by
    show win0_5.index t 1 * 256 + 1 * q.val = _; rw [e1]; omega
  refine pre_of_blocks (iblk0 V c 0 t) (iblk0 V c 1 t) (iblk0 V c 2 t) (iblk0 V c 3 t) (iblk0 V c 4 t)
    (V c main_v13) (V c main_arg0) (V c main_v14) (V c main_v15) (V c main_v16) r q _ _
    (fun κ => agg_rows V c t (ix2 r κ) _ hp rfl) (fun κ => feat_rows V c t (ix2 r κ) _ hp rfl)
    (wrel_whole V c t) (wroot_whole V c t) (bias_whole V c t) (Fin.ext hq.symm)

/-- An index of the result array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v17).slice (win0_5.rect t)).set ↔ _
  rw [View.set_slice_whole, Rect.mem_set_unit]
  exact Iff.rfl

/-- The 25 blocks cover the result: row i is in the block of point i / 2000, since
    2000·(i / 2000) ≤ i < 2000·(i / 2000) + 2000, and every column is in the one block of columns. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- After pallas_call 0 has run over all 25 row blocks, its result array is the whole layer of the arrays the
    call was entered with. -/
theorem out_eq (c : Dev nD) :
    (dat0 (F := Ideal) V c).arrAt 5 cfg0.N
      = Cert.Spec.layer (n := 50000) (di := 128) (dz := 256) (V c main_v13) (V c main_arg0) (V c main_v14) (V c main_v15) (V c main_v16) := by
  exact (dat0 (F := Ideal) V c).arrAt_eq_of_cover 5 _ (fun t _ => flushed_eq V c t) cover

end Cert.KernelIdeal.Region0

end
-- ==== Proof.KValue.lean ====
/-
  What the run leaves in the two result arrays, as functions of the launch contents.

  The run alternates four stretches of host operations with the four pallas_calls, and the contents of each buffer
  that matters are followed boundary by boundary. Three kinds of fact are used, and nothing else:

  * a stretch of host operations leaves in a result buffer the named function (`src`, `dst`, `agg…`, `tr…`, `row…`)
    of what its operand buffers held when the stretch began, and leaves every buffer that none of its operations
    writes as it was;
  * a pallas_call leaves in its result array the whole layer `Cert.Spec.layer` of the five arrays it was entered
    with, leaves each of those five arrays as entered, and leaves every other buffer as it was;
  * nothing writes an argument of the program, and nothing writes the source row or the target row of the edge list
    once the first stretch has made them.

  So the result of call 0 is `step0` of the launch contents; the result of call 1 is `step1` of that, which is the
  embedding `netEmb`, and it survives the two later stretches and the two later calls (call 2 reads it as an input);
  the result of call 2 is `step2` of the embedding, and the result of call 3 is `step3` of that, which is `netOut`.
-/
import proofs.«152855_j82635170775050_1_alg».proof.Proof.Gen.KernelIdeal.Frame
import proofs.«152855_j82635170775050_1_alg».proof.Proof.Fns
import proofs.«152855_j82635170775050_1_alg».proof.Proof.KHost
import proofs.«152855_j82635170775050_1_alg».proof.Proof.Region0
import proofs.«152855_j82635170775050_1_alg».proof.Proof.Region1
import proofs.«152855_j82635170775050_1_alg».proof.Proof.Region2
import proofs.«152855_j82635170775050_1_alg».proof.Proof.Region3

set_option maxRecDepth 16384

noncomputable section

namespace Cert.KernelIdeal.Value

open Cert.KernelIdeal Cert.KernelIdeal.Gen Cert.KernelIdeal.Fns
open Idealize.ShloMosaic Idealize.ShloMosaic.TcCoe Idealize.SL.Sem

variable (m : (ℓ : Loc nD τ sig) → Buf (Elt Ideal) ℓ) (ρ : Dev nD → PrngReg)

/-! ## The launch contents of the fourteen arguments on core `c`

`a0` the node features, `a1` the edge list, then per layer the two weight matrices and the bias:
`a2 a3 a4`, `a5 a6 a7`, `a8 a9 a10`, `a11 a12 a13`. -/

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)
abbrev a11 (c : Dev nD) := m ((c.tc : Thread nD τ).loc main_arg11)
abbrev a12 (c : Dev nD) := m ((c.tc : Thread nD τ).loc main_arg12)
abbrev a13 (c : Dev nD) := m ((c.tc : Thread nD τ).loc main_arg13)

/-- A buffer that no operation of a stretch of host operations writes holds after the stretch what it held before:
    each operation writes its one result buffer, and that is a different reference every time. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## Entry of pallas_call 0: after the first stretch of host operations

The stretch starts from the launch contents, so its results are the named functions of the arguments. -/

theorem W1_v1 (c : Dev nD) : W1 (F := Ideal) m ρ c (Proc.devRef .tc main_v1) = src (a1 m c) :=
  Host.h0_v1 (W0 m ρ c)
theorem W1_v3 (c : Dev nD) : W1 (F := Ideal) m ρ c (Proc.devRef .tc main_v3) = dst (a1 m c) :=
  Host.h0_v3 (W0 m ρ c)
theorem W1_v13 (c : Dev nD) :
    W1 (F := Ideal) m ρ c (Proc.devRef .tc main_v13) = agg128 (a0 m c) (srcn (src (a1 m c))) (dst (a1 m c)) :=
  Host.h0_v13 (W0 m ρ c)
theorem W1_v14 (c : Dev nD) : W1 (F := Ideal) m ρ c (Proc.devRef .tc main_v14) = tr0 (a2 m c) :=
  Host.h0_v14 (W0 m ρ c)
theorem W1_v15 (c : Dev nD) : W1 (F := Ideal) m ρ c (Proc.devRef .tc main_v15) = tr0 (a3 m c) :=
  Host.h0_v15 (W0 m ρ c)
theorem W1_v16 (c : Dev nD) : W1 (F := Ideal) m ρ c (Proc.devRef .tc main_v16) = row256 (a4 m c) :=
  Host.h0_v16 (W0 m ρ c)
/-- The node features are not written by the first stretch. -/
theorem W1_arg0 (c : Dev nD) : W1 (F := Ideal) m ρ c (Proc.devRef .tc main_arg0) = a0 m c := by
  host_keeps hostOps0

/-! ## Exit of pallas_call 0 -/

/-- The result of call 0 is layer 0 of the launch contents. -/
theorem W2_v17 (c : Dev nD) :
    W2 (F := Ideal) m ρ c (Proc.devRef .tc main_v17) = step0 (a0 m c) (a1 m c) (a2 m c) (a3 m c) (a4 m c) := by
  refine (W2_arr m ρ c 5).trans ((Region0.out_eq (V1 m ρ) c).trans ?_)
  show Cert.Spec.layer (n := 50000) (di := 128) (dz := 256) (W1 m ρ c (Proc.devRef .tc main_v13))
    (W1 m ρ c (Proc.devRef .tc main_arg0)) (W1 m ρ c (Proc.devRef .tc main_v14))
    (W1 m ρ c (Proc.devRef .tc main_v15)) (W1 m ρ c (Proc.devRef .tc main_v16)) = _
  unfold step0
  rw [W1_v13 m ρ c, W1_arg0 m ρ c, W1_v14 m ρ c, W1_v15 m ρ c, W1_v16 m ρ c]
/-- The source and target rows are not arrays of call 0. -/
theorem W2_v1 (c : Dev nD) : W2 (F := Ideal) m ρ c (Proc.devRef .tc main_v1) = src (a1 m c) :=
  (W2_of_ne m ρ c main_v1 (by decide)).trans (W1_v1 m ρ c)
theorem W2_v3 (c : Dev nD) : W2 (F := Ideal) m ρ c (Proc.devRef .tc main_v3) = dst (a1 m c) :=
  (W2_of_ne m ρ c main_v3 (by decide)).trans (W1_v3 m ρ c)
/-- Layer 1's arguments are as launched: neither call 0 nor the first stretch writes them. -/
theorem W2_arg5 (c : Dev nD) : W2 (F := Ideal) m ρ c (Proc.devRef .tc main_arg5) = a5 m c :=
  calc W2 m ρ c (Proc.devRef .tc main_arg5)
    _ = W1 m ρ c (Proc.devRef .tc main_arg5) := W2_of_ne m ρ c main_arg5 (by decide)
    _ = a5 m c := by host_keeps hostOps0
theorem W2_arg6 (c : Dev nD) : W2 (F := Ideal) m ρ c (Proc.devRef .tc main_arg6) = a6 m c :=
  calc W2 m ρ c (Proc.devRef .tc main_arg6)
    _ = W1 m ρ c (Proc.devRef .tc main_arg6) := W2_of_ne m ρ c main_arg6 (by decide)
    _ = a6 m c := by host_keeps hostOps0
theorem W2_arg7 (c : Dev nD) : W2 (F := Ideal) m ρ c (Proc.devRef .tc main_arg7) = a7 m c :=
  calc W2 m ρ c (Proc.devRef .tc main_arg7)
    _ = W1 m ρ c (Proc.devRef .tc main_arg7) := W2_of_ne m ρ c main_arg7 (by decide)
    _ = a7 m c := by host_keeps hostOps0

/-! ## Entry of pallas_call 1: after the second stretch -/

theorem W3_v27 (c : Dev nD) :
    W3 (F := Ideal) m ρ c (Proc.devRef .tc main_v27)
      = agg256 (step0 (a0 m c) (a1 m c) (a2 m c) (a3 m c) (a4 m c)) (srcn (src (a1 m c))) (dst (a1 m c)) :=
  (Host.h1_v27 (W2 m ρ c)).trans (by rw [W2_v17 m ρ c, W2_v1 m ρ c, W2_v3 m ρ c])
theorem W3_v28 (c : Dev nD) : W3 (F := Ideal) m ρ c (Proc.devRef .tc main_v28) = tr1 (a5 m c) :=
  (Host.h1_v28 (W2 m ρ c)).trans (by rw [W2_arg5 m ρ c])
theorem W3_v29 (c : Dev nD) : W3 (F := Ideal) m ρ c (Proc.devRef .tc main_v29) = tr1 (a6 m c) :=
  (Host.h1_v29 (W2 m ρ c)).trans (by rw [W2_arg6 m ρ c])
theorem W3_v30 (c : Dev nD) : W3 (F := Ideal) m ρ c (Proc.devRef .tc main_v30) = row64 (a7 m c) :=
  (Host.h1_v30 (W2 m ρ c)).trans (by rw [W2_arg7 m ρ c])
/-- The second stretch reads layer 0's result and the two rows, and writes none of them. -/
theorem W3_v17 (c : Dev nD) :
    W3 (F := Ideal) m ρ c (Proc.devRef .tc main_v17) = step0 (a0 m c) (a1 m c) (a2 m c) (a3 m c) (a4 m c) :=
  calc W3 m ρ c (Proc.devRef .tc main_v17)
    _ = W2 m ρ c (Proc.devRef .tc main_v17) := by host_keeps hostOps1
    _ = _ := W2_v17 m ρ c
theorem W3_v1 (c : Dev nD) : W3 (F := Ideal) m ρ c (Proc.devRef .tc main_v1) = src (a1 m c) :=
  calc W3 m ρ c (Proc.devRef .tc main_v1)
    _ = W2 m ρ c (Proc.devRef .tc main_v1) := by host_keeps hostOps1
    _ = _ := W2_v1 m ρ c
theorem W3_v3 (c : Dev nD) : W3 (F := Ideal) m ρ c (Proc.devRef .tc main_v3) = dst (a1 m c) :=
  calc W3 m ρ c (Proc.devRef .tc main_v3)
    _ = W2 m ρ c (Proc.devRef .tc main_v3) := by host_keeps hostOps1
    _ = _ := W2_v3 m ρ c

/-! ## Exit of pallas_call 1 -/

/-- The result of call 1 is layer 1 of layer 0 of the launch contents: the embedding. -/
theorem W4_v31 (c : Dev nD) :
    W4 (F := Ideal) m ρ c (Proc.devRef .tc main_v31)
      = netEmb (a0 m c) (a1 m c) (a2 m c) (a3 m c) (a4 m c) (a5 m c) (a6 m c) (a7 m c) := by
  refine (W4_arr m ρ c 5).trans ((Region1.out_eq (V3 m ρ) c).trans ?_)
  show Cert.Spec.layer (n := 50000) (di := 256) (dz := 64) (W3 m ρ c (Proc.devRef .tc main_v27))
    (W3 m ρ c (Proc.devRef .tc main_v17)) (W3 m ρ c (Proc.devRef .tc main_v28))
    (W3 m ρ c (Proc.devRef .tc main_v29)) (W3 m ρ c (Proc.devRef .tc main_v30)) = _
  unfold netEmb step1
  rw [W3_v27 m ρ c, W3_v17 m ρ c, W3_v28 m ρ c, W3_v29 m ρ c, W3_v30 m ρ c]
theorem W4_v1 (c : Dev nD) : W4 (F := Ideal) m ρ c (Proc.devRef .tc main_v1) = src (a1 m c) :=
  (W4_of_ne m ρ c main_v1 (by decide)).trans (W3_v1 m ρ c)
theorem W4_v3 (c : Dev nD) : W4 (F := Ideal) m ρ c (Proc.devRef .tc main_v3) = dst (a1 m c) :=
  (W4_of_ne m ρ c main_v3 (by decide)).trans (W3_v3 m ρ c)
/-- Layer 2's arguments are as launched. -/
theorem W4_arg8 (c : Dev nD) : W4 (F := Ideal) m ρ c (Proc.devRef .tc main_arg8) = a8 m c :=
  calc W4 m ρ c (Proc.devRef .tc main_arg8)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = a8 m c := by host_keeps hostOps0
theorem W4_arg9 (c : Dev nD) : W4 (F := Ideal) m ρ c (Proc.devRef .tc main_arg9) = a9 m c :=
  calc W4 m ρ c (Proc.devRef .tc main_arg9)
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = a9 m c := by host_keeps hostOps0
theorem W4_arg10 (c : Dev nD) : W4 (F := Ideal) m ρ c (Proc.devRef .tc main_arg10) = a10 m c :=
  calc W4 m ρ c (Proc.devRef .tc main_arg10)
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = a10 m c := by host_keeps hostOps0

/-! ## Entry of pallas_call 2: after the third stretch -/

theorem W5_v41 (c : Dev nD) :
    W5 (F := Ideal) m ρ c (Proc.devRef .tc main_v41)
      = agg64 (netEmb (a0 m c) (a1 m c) (a2 m c) (a3 m c) (a4 m c) (a5 m c) (a6 m c) (a7 m c))
          (srcn (src (a1 m c))) (dst (a1 m c)) :=
  (Host.h2_v41 (W4 m ρ c)).trans (by rw [W4_v31 m ρ c, W4_v1 m ρ c, W4_v3 m ρ c])
theorem W5_v42 (c : Dev nD) : W5 (F := Ideal) m ρ c (Proc.devRef .tc main_v42) = tr2 (a8 m c) :=
  (Host.h2_v42 (W4 m ρ c)).trans (by rw [W4_arg8 m ρ c])
theorem W5_v43 (c : Dev nD) : W5 (F := Ideal) m ρ c (Proc.devRef .tc main_v43) = tr2 (a9 m c) :=
  (Host.h2_v43 (W4 m ρ c)).trans (by rw [W4_arg9 m ρ c])
theorem W5_v44 (c : Dev nD) : W5 (F := Ideal) m ρ c (Proc.devRef .tc main_v44) = row256 (a10 m c) :=
  (Host.h2_v44 (W4 m ρ c)).trans (by rw [W4_arg10 m ρ c])
/-- The third stretch reads the embedding and the two rows, and writes none of them. -/
theorem W5_v31 (c : Dev nD) :
    W5 (F := Ideal) m ρ c (Proc.devRef .tc main_v31)
      = netEmb (a0 m c) (a1 m c) (a2 m c) (a3 m c) (a4 m c) (a5 m c) (a6 m c) (a7 m c) :=
  calc W5 m ρ c (Proc.devRef .tc main_v31)
    _ = W4 m ρ c (Proc.devRef .tc main_v31) := by host_keeps hostOps2
    _ = _ := W4_v31 m ρ c
theorem W5_v1 (c : Dev nD) : W5 (F := Ideal) m ρ c (Proc.devRef .tc main_v1) = src (a1 m c) :=
  calc W5 m ρ c (Proc.devRef .tc main_v1)
    _ = W4 m ρ c (Proc.devRef .tc main_v1) := by host_keeps hostOps2
    _ = _ := W4_v1 m ρ c
theorem W5_v3 (c : Dev nD) : W5 (F := Ideal) m ρ c (Proc.devRef .tc main_v3) = dst (a1 m c) :=
  calc W5 m ρ c (Proc.devRef .tc main_v3)
    _ = W4 m ρ c (Proc.devRef .tc main_v3) := by host_keeps hostOps2
    _ = _ := W4_v3 m ρ c

/-! ## Exit of pallas_call 2 -/

/-- The result of call 2 is layer 2 of the embedding. -/
theorem W6_v45 (c : Dev nD) :
    W6 (F := Ideal) m ρ c (Proc.devRef .tc main_v45)
      = step2 (netEmb (a0 m c) (a1 m c) (a2 m c) (a3 m c) (a4 m c) (a5 m c) (a6 m c) (a7 m c))
          (a1 m c) (a8 m c) (a9 m c) (a10 m c) := by
  refine (W6_arr m ρ c 5).trans ((Region2.out_eq (V5 m ρ) c).trans ?_)
  show Cert.Spec.layer (n := 50000) (di := 64) (dz := 256) (W5 m ρ c (Proc.devRef .tc main_v41))
    (W5 m ρ c (Proc.devRef .tc main_v31)) (W5 m ρ c (Proc.devRef .tc main_v42))
    (W5 m ρ c (Proc.devRef .tc main_v43)) (W5 m ρ c (Proc.devRef .tc main_v44)) = _
  unfold step2
  rw [W5_v41 m ρ c, W5_v31 m ρ c, W5_v42 m ρ c, W5_v43 m ρ c, W5_v44 m ρ c]
/-- Call 2 reads the embedding through an input window, so its array leaves the call as it entered. -/
theorem W6_v31 (c : Dev nD) :
    W6 (F := Ideal) m ρ c (Proc.devRef .tc main_v31)
      = netEmb (a0 m c) (a1 m c) (a2 m c) (a3 m c) (a4 m c) (a5 m c) (a6 m c) (a7 m c) :=
  calc W6 m ρ c (Proc.devRef .tc main_v31)
    _ = W5 m ρ c (Proc.devRef .tc main_v31) :=
        (W6_arr m ρ c 1).trans (((dat2 (V5 m ρ) c).arrAt_in 1 rfl _).trans (A_eq2 (V5 m ρ) c 1))
    _ = _ := W5_v31 m ρ c
theorem W6_v1 (c : Dev nD) : W6 (F := Ideal) m ρ c (Proc.devRef .tc main_v1) = src (a1 m c) :=
  (W6_of_ne m ρ c main_v1 (by decide)).trans (W5_v1 m ρ c)
theorem W6_v3 (c : Dev nD) : W6 (F := Ideal) m ρ c (Proc.devRef .tc main_v3) = dst (a1 m c) :=
  (W6_of_ne m ρ c main_v3 (by decide)).trans (W5_v3 m ρ c)
/-- Layer 3's arguments are as launched. -/
theorem W6_arg11 (c : Dev nD) : W6 (F := Ideal) m ρ c (Proc.devRef .tc main_arg11) = a11 m c :=
  calc W6 m ρ c (Proc.devRef .tc main_arg11)
    _ = W5 m ρ c (Proc.devRef .tc main_arg11) := W6_of_ne m ρ c main_arg11 (by decide)
    _ = W4 m ρ c (Proc.devRef .tc main_arg11) := by host_keeps hostOps2
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = a11 m c := by host_keeps hostOps0
theorem W6_arg12 (c : Dev nD) : W6 (F := Ideal) m ρ c (Proc.devRef .tc main_arg12) = a12 m c :=
  calc W6 m ρ c (Proc.devRef .tc main_arg12)
    _ = W5 m ρ c (Proc.devRef .tc main_arg12) := W6_of_ne m ρ c main_arg12 (by decide)
    _ = W4 m ρ c (Proc.devRef .tc main_arg12) := by host_keeps hostOps2
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = a12 m c := by host_keeps hostOps0
theorem W6_arg13 (c : Dev nD) : W6 (F := Ideal) m ρ c (Proc.devRef .tc main_arg13) = a13 m c :=
  calc W6 m ρ c (Proc.devRef .tc main_arg13)
    _ = W5 m ρ c (Proc.devRef .tc main_arg13) := W6_of_ne m ρ c main_arg13 (by decide)
    _ = W4 m ρ c (Proc.devRef .tc main_arg13) := by host_keeps hostOps2
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = a13 m c := by host_keeps hostOps0

/-! ## Entry of pallas_call 3: after the fourth stretch -/

theorem W7_v55 (c : Dev nD) :
    W7 (F := Ideal) m ρ c (Proc.devRef .tc main_v55)
      = agg256 (step2 (netEmb (a0 m c) (a1 m c) (a2 m c) (a3 m c) (a4 m c) (a5 m c) (a6 m c) (a7 m c))
          (a1 m c) (a8 m c) (a9 m c) (a10 m c)) (srcn (src (a1 m c))) (dst (a1 m c)) :=
  (Host.h3_v55 (W6 m ρ c)).trans (by rw [W6_v45 m ρ c, W6_v1 m ρ c, W6_v3 m ρ c])
theorem W7_v56 (c : Dev nD) : W7 (F := Ideal) m ρ c (Proc.devRef .tc main_v56) = tr3 (a11 m c) :=
  (Host.h3_v56 (W6 m ρ c)).trans (by rw [W6_arg11 m ρ c])
theorem W7_v57 (c : Dev nD) : W7 (F := Ideal) m ρ c (Proc.devRef .tc main_v57) = tr3 (a12 m c) :=
  (Host.h3_v57 (W6 m ρ c)).trans (by rw [W6_arg12 m ρ c])
theorem W7_v58 (c : Dev nD) : W7 (F := Ideal) m ρ c (Proc.devRef .tc main_v58) = row128 (a13 m c) :=
  (Host.h3_v58 (W6 m ρ c)).trans (by rw [W6_arg13 m ρ c])
/-- The fourth stretch reads layer 2's result, and writes neither it nor the embedding. -/
theorem W7_v45 (c : Dev nD) :
    W7 (F := Ideal) m ρ c (Proc.devRef .tc main_v45)
      = step2 (netEmb (a0 m c) (a1 m c) (a2 m c) (a3 m c) (a4 m c) (a5 m c) (a6 m c) (a7 m c))
          (a1 m c) (a8 m c) (a9 m c) (a10 m c) :=
  calc W7 m ρ c (Proc.devRef .tc main_v45)
    _ = W6 m ρ c (Proc.devRef .tc main_v45) := by host_keeps hostOps3
    _ = _ := W6_v45 m ρ c
theorem W7_v31 (c : Dev nD) :
    W7 (F := Ideal) m ρ c (Proc.devRef .tc main_v31)
      = netEmb (a0 m c) (a1 m c) (a2 m c) (a3 m c) (a4 m c) (a5 m c) (a6 m c) (a7 m c) :=
  calc W7 m ρ c (Proc.devRef .tc main_v31)
    _ = W6 m ρ c (Proc.devRef .tc main_v31) := by host_keeps hostOps3
    _ = _ := W6_v31 m ρ c

/-! ## Exit of pallas_call 3: the two results -/

/-- The result of call 3 is layer 3 of layer 2 of the embedding: the output. -/
theorem W8_v59 (c : Dev nD) :
    W8 (F := Ideal) m ρ c (Proc.devRef .tc main_v59)
      = netOut (a0 m c) (a1 m c) (a2 m c) (a3 m c) (a4 m c) (a5 m c) (a6 m c) (a7 m c) (a8 m c) (a9 m c) (a10 m c)
          (a11 m c) (a12 m c) (a13 m c) := by
  refine (W8_arr m ρ c 5).trans ((Region3.out_eq (V7 m ρ) c).trans ?_)
  show Cert.Spec.layer (n := 50000) (di := 256) (dz := 128) (W7 m ρ c (Proc.devRef .tc main_v55))
    (W7 m ρ c (Proc.devRef .tc main_v45)) (W7 m ρ c (Proc.devRef .tc main_v56))
    (W7 m ρ c (Proc.devRef .tc main_v57)) (W7 m ρ c (Proc.devRef .tc main_v58)) = _
  unfold netOut step3
  rw [W7_v55 m ρ c, W7_v45 m ρ c, W7_v56 m ρ c, W7_v57 m ρ c, W7_v58 m ρ c]

/-- What the run's fold leaves in the embedding's array: layers 0 and 1 of the launch contents. -/
theorem emb_eq (c : Dev nD) :
    W8 (F := Ideal) m ρ c (Proc.devRef .tc main_v31)
      = netEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  -- the embedding's array is not an array of call 3
  (W8_of_ne m ρ c main_v31 (by decide)).trans (W7_v31 m ρ c)

/-- What the run's fold leaves in the final layer's array: all four layers of the launch contents. -/
theorem out_eq (c : Dev nD) :
    W8 (F := Ideal) m ρ c (Proc.devRef .tc main_v59)
      = netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) :=
  W8_v59 m ρ c

end Cert.KernelIdeal.Value

end
-- ==== Proof.ROps.lean ====
/- The reference's @main as lists of its host operations, in order: one list per layer (each ends with the select of
   that layer's leaky rectifier), the whole list, and that every operation touches TensorCore buffers only. -/
import proofs.«152855_j82635170775050_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Layer 0's 33 operations. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg2 main_v14 ((transpose S128x256 [1, 0] · transposes_S256x128_S128x256_1_0) : (⟨S256x128, .f32⟩ : BufTy).Contents (Elt F) → (⟨S128x256, .f32⟩ : BufTy).Contents (Elt F)),
    binary main_v13 main_v14 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    unary main_arg3 main_v19 ((transpose S128x256 [1, 0] · transposes_S256x128_S128x256_1_0) : (⟨S256x128, .f32⟩ : BufTy).Contents (Elt F) → (⟨S128x256, .f32⟩ : BufTy).Contents (Elt F)),
    binary main_arg0 main_v19 main_v20 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x256 ![] bcast_S_S50000x256),
    TRef.binary (.of main_v21) main_call0.v0 main_call0.v1 (cmpf .oge),
    TRef.unary (.of main_cst_1) main_call0.v2 id,
    TRef.unary main_call0.v2 main_call0.v3 (broadcastInDim S50000x256 ![] bcast_S_S50000x256),
    TRef.binary main_call0.v3 (.of main_v21) main_call0.v4 mulf,
    TRef.ternary main_call0.v1 (.of main_v21) main_call0.v4 main_call0.call0.v0 select ]

/-- Layer 1's 33 operations. -/
abbrev opsB : List (HloOp τ sig (Elt F)) :=
  [ unary main_arg1 main_v23 ((extractStridedSlice S1x800000 ![0, 0] · slices_S2x800000_S1x800000_0_0) : (⟨S2x800000, .i32⟩ : BufTy).Contents (Elt F) → (⟨S1x800000, .i32⟩ : BufTy).Contents (Elt F)),
    reshape main_v23 main_v24 rfl shapeCasts_S1x800000_S800000,
    unary main_arg1 main_v25 ((extractStridedSlice S1x800000 ![1, 0] · slices_S2x800000_S1x800000_1_0) : (⟨S2x800000, .i32⟩ : BufTy).Contents (Elt F) → (⟨S1x800000, .i32⟩ : BufTy).Contents (Elt F)),
    reshape main_v25 main_v26 rfl shapeCasts_S1x800000_S800000,
    nullary main_c_2 (constantI S_ 32 0#32),
    unary main_c_2 main_v27 (broadcastInDim S800000 ![] bcast_S_S800000 : (⟨S_, .i32⟩ : BufTy).Contents (Elt F) → (⟨S800000, .i32⟩ : BufTy).Contents (Elt F)),
    binary main_v24 main_v27 main_v28 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v29 (broadcastInDim S800000 ![] bcast_S_S800000 : (⟨S_, .i32⟩ : BufTy).Contents (Elt F) → (⟨S800000, .i32⟩ : BufTy).Contents (Elt F)),
    binary main_v24 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v24 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v22 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_4 (constant S_ .f32 0x00000000#32),
    unary main_cst_4 main_v34 (broadcastInDim S50000x256 ![] bcast_S_S50000x256 : (⟨S_, .f32⟩ : BufTy).Contents (Elt F) → (⟨S50000x256, .f32⟩ : BufTy).Contents (Elt F)),
    unary main_v26 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg5 main_v37 ((transpose S256x64 [1, 0] · transposes_S64x256_S256x64_1_0) : (⟨S64x256, .f32⟩ : BufTy).Contents (Elt F) → (⟨S256x64, .f32⟩ : BufTy).Contents (Elt F)),
    binary main_v36 main_v37 main_v38 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg7 main_v39 (broadcastInDim S1x64 ![1] bcast_S64_S1x64_1 : (⟨S64, .f32⟩ : BufTy).Contents (Elt F) → (⟨S1x64, .f32⟩ : BufTy).Contents (Elt F)),
    unary main_v39 main_v40 (broadcastInDim S50000x64 ![0, 1] bcast_S1x64_S50000x64_0_1 : (⟨S1x64, .f32⟩ : BufTy).Contents (Elt F) → (⟨S50000x64, .f32⟩ : BufTy).Contents (Elt F)),
    binary main_v38 main_v40 main_v41 (addf : (⟨S50000x64, .f32⟩ : BufTy).Contents (Elt F) → (⟨S50000x64, .f32⟩ : BufTy).Contents (Elt F) → (⟨S50000x64, .f32⟩ : BufTy).Contents (Elt F)),
    unary main_arg6 main_v42 ((transpose S256x64 [1, 0] · transposes_S64x256_S256x64_1_0) : (⟨S64x256, .f32⟩ : BufTy).Contents (Elt F) → (⟨S256x64, .f32⟩ : BufTy).Contents (Elt F)),
    binary main_v22 main_v42 main_v43 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3C23D70A#32),
    TRef.nullary main_call1.cst (constant S_ .f32 0x00000000#32),
    TRef.unary main_call1.cst main_call1.v0 (broadcastInDim S50000x64 ![] bcast_S_S50000x64),
    TRef.binary (.of main_v44) main_call1.v0 main_call1.v1 (cmpf .oge),
    TRef.unary (.of main_cst_5) main_call1.v2 id,
    TRef.unary main_call1.v2 main_call1.v3 (broadcastInDim S50000x64 ![] bcast_S_S50000x64),
    TRef.binary main_call1.v3 (.of main_v44) main_call1.v4 mulf,
    TRef.ternary main_call1.v1 (.of main_v44) main_call1.v4 main_call1.call0.v0 select ]

/-- Layer 2's 33 operations. -/
abbrev opsC : List (HloOp τ sig (Elt F)) :=
  [ unary main_arg1 main_v46 ((extractStridedSlice S1x800000 ![0, 0] · slices_S2x800000_S1x800000_0_0) : (⟨S2x800000, .i32⟩ : BufTy).Contents (Elt F) → (⟨S1x800000, .i32⟩ : BufTy).Contents (Elt F)),
    reshape main_v46 main_v47 rfl shapeCasts_S1x800000_S800000,
    unary main_arg1 main_v48 ((extractStridedSlice S1x800000 ![1, 0] · slices_S2x800000_S1x800000_1_0) : (⟨S2x800000, .i32⟩ : BufTy).Contents (Elt F) → (⟨S1x800000, .i32⟩ : BufTy).Contents (Elt F)),
    reshape main_v48 main_v49 rfl shapeCasts_S1x800000_S800000,
    nullary main_c_6 (constantI S_ 32 0#32),
    unary main_c_6 main_v50 (broadcastInDim S800000 ![] bcast_S_S800000 : (⟨S_, .i32⟩ : BufTy).Contents (Elt F) → (⟨S800000, .i32⟩ : BufTy).Contents (Elt F)),
    binary main_v47 main_v50 main_v51 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v52 (broadcastInDim S800000 ![] bcast_S_S800000 : (⟨S_, .i32⟩ : BufTy).Contents (Elt F) → (⟨S800000, .i32⟩ : BufTy).Contents (Elt F)),
    binary main_v47 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v47 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v45 main_v55 main_v56 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v57 (broadcastInDim S50000x64 ![] bcast_S_S50000x64 : (⟨S_, .f32⟩ : BufTy).Contents (Elt F) → (⟨S50000x64, .f32⟩ : BufTy).Contents (Elt F)),
    unary main_v49 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg8 main_v60 ((transpose S64x256 [1, 0] · transposes_S256x64_S64x256_1_0) : (⟨S256x64, .f32⟩ : BufTy).Contents (Elt F) → (⟨S64x256, .f32⟩ : BufTy).Contents (Elt F)),
    binary main_v59 main_v60 main_v61 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v61 main_v63 main_v64 (addf : (⟨S50000x256, .f32⟩ : BufTy).Contents (Elt F) → (⟨S50000x256, .f32⟩ : BufTy).Contents (Elt F) → (⟨S50000x256, .f32⟩ : BufTy).Contents (Elt F)),
    unary main_arg9 main_v65 ((transpose S64x256 [1, 0] · transposes_S256x64_S64x256_1_0) : (⟨S256x64, .f32⟩ : BufTy).Contents (Elt F) → (⟨S64x256, .f32⟩ : BufTy).Contents (Elt F)),
    binary main_v45 main_v65 main_v66 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3C23D70A#32),
    TRef.nullary main_call2.cst (constant S_ .f32 0x00000000#32),
    TRef.unary main_call2.cst main_call2.v0 (broadcastInDim S50000x256 ![] bcast_S_S50000x256),
    TRef.binary (.of main_v67) main_call2.v0 main_call2.v1 (cmpf .oge),
    TRef.unary (.of main_cst_9) main_call2.v2 id,
    TRef.unary main_call2.v2 main_call2.v3 (broadcastInDim S50000x256 ![] bcast_S_S50000x256),
    TRef.binary main_call2.v3 (.of main_v67) main_call2.v4 mulf,
    TRef.ternary main_call2.v1 (.of main_v67) main_call2.v4 main_call2.call0.v0 select ]

/-- Layer 3's 33 operations. -/
abbrev opsD : List (HloOp τ sig (Elt F)) :=
  [ unary main_arg1 main_v69 ((extractStridedSlice S1x800000 ![0, 0] · slices_S2x800000_S1x800000_0_0) : (⟨S2x800000, .i32⟩ : BufTy).Contents (Elt F) → (⟨S1x800000, .i32⟩ : BufTy).Contents (Elt F)),
    reshape main_v69 main_v70 rfl shapeCasts_S1x800000_S800000,
    unary main_arg1 main_v71 ((extractStridedSlice S1x800000 ![1, 0] · slices_S2x800000_S1x800000_1_0) : (⟨S2x800000, .i32⟩ : BufTy).Contents (Elt F) → (⟨S1x800000, .i32⟩ : BufTy).Contents (Elt F)),
    reshape main_v71 main_v72 rfl shapeCasts_S1x800000_S800000,
    nullary main_c_10 (constantI S_ 32 0#32),
    unary main_c_10 main_v73 (broadcastInDim S800000 ![] bcast_S_S800000 : (⟨S_, .i32⟩ : BufTy).Contents (Elt F) → (⟨S800000, .i32⟩ : BufTy).Contents (Elt F)),
    binary main_v70 main_v73 main_v74 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v75 (broadcastInDim S800000 ![] bcast_S_S800000 : (⟨S_, .i32⟩ : BufTy).Contents (Elt F) → (⟨S800000, .i32⟩ : BufTy).Contents (Elt F)),
    binary main_v70 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v70 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v68 main_v78 main_v79 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v80 (broadcastInDim S50000x256 ![] bcast_S_S50000x256 : (⟨S_, .f32⟩ : BufTy).Contents (Elt F) → (⟨S50000x256, .f32⟩ : BufTy).Contents (Elt F)),
    unary main_v72 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg11 main_v83 ((transpose S256x128 [1, 0] · transposes_S128x256_S256x128_1_0) : (⟨S128x256, .f32⟩ : BufTy).Contents (Elt F) → (⟨S256x128, .f32⟩ : BufTy).Contents (Elt F)),
    binary main_v82 main_v83 main_v84 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    unary main_arg12 main_v88 ((transpose S256x128 [1, 0] · transposes_S128x256_S256x128_1_0) : (⟨S128x256, .f32⟩ : BufTy).Contents (Elt F) → (⟨S256x128, .f32⟩ : BufTy).Contents (Elt F)),
    binary main_v68 main_v88 main_v89 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3C23D70A#32),
    TRef.nullary main_call3.cst (constant S_ .f32 0x00000000#32),
    TRef.unary main_call3.cst main_call3.v0 (broadcastInDim S50000x128 ![] bcast_S_S50000x128),
    TRef.binary (.of main_v90) main_call3.v0 main_call3.v1 (cmpf .oge),
    TRef.unary (.of main_cst_13) main_call3.v2 id,
    TRef.unary main_call3.v2 main_call3.v3 (broadcastInDim S50000x128 ![] bcast_S_S50000x128),
    TRef.binary main_call3.v3 (.of main_v90) main_call3.v4 mulf,
    TRef.ternary main_call3.v1 (.of main_v90) main_call3.v4 main_call3.call0.v0 select ]

/-- @main's 132 operations. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg2 main_v14 ((transpose S128x256 [1, 0] · transposes_S256x128_S128x256_1_0) : (⟨S256x128, .f32⟩ : BufTy).Contents (Elt F) → (⟨S128x256, .f32⟩ : BufTy).Contents (Elt F)),
    binary main_v13 main_v14 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    unary main_arg3 main_v19 ((transpose S128x256 [1, 0] · transposes_S256x128_S128x256_1_0) : (⟨S256x128, .f32⟩ : BufTy).Contents (Elt F) → (⟨S128x256, .f32⟩ : BufTy).Contents (Elt F)),
    binary main_arg0 main_v19 main_v20 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x256 ![] bcast_S_S50000x256),
    TRef.binary (.of main_v21) main_call0.v0 main_call0.v1 (cmpf .oge),
    TRef.unary (.of main_cst_1) main_call0.v2 id,
    TRef.unary main_call0.v2 main_call0.v3 (broadcastInDim S50000x256 ![] bcast_S_S50000x256),
    TRef.binary main_call0.v3 (.of main_v21) main_call0.v4 mulf,
    TRef.ternary main_call0.v1 (.of main_v21) main_call0.v4 main_call0.call0.v0 select,
    unary main_arg1 main_v23 ((extractStridedSlice S1x800000 ![0, 0] · slices_S2x800000_S1x800000_0_0) : (⟨S2x800000, .i32⟩ : BufTy).Contents (Elt F) → (⟨S1x800000, .i32⟩ : BufTy).Contents (Elt F)),
    reshape main_v23 main_v24 rfl shapeCasts_S1x800000_S800000,
    unary main_arg1 main_v25 ((extractStridedSlice S1x800000 ![1, 0] · slices_S2x800000_S1x800000_1_0) : (⟨S2x800000, .i32⟩ : BufTy).Contents (Elt F) → (⟨S1x800000, .i32⟩ : BufTy).Contents (Elt F)),
    reshape main_v25 main_v26 rfl shapeCasts_S1x800000_S800000,
    nullary main_c_2 (constantI S_ 32 0#32),
    unary main_c_2 main_v27 (broadcastInDim S800000 ![] bcast_S_S800000 : (⟨S_, .i32⟩ : BufTy).Contents (Elt F) → (⟨S800000, .i32⟩ : BufTy).Contents (Elt F)),
    binary main_v24 main_v27 main_v28 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v29 (broadcastInDim S800000 ![] bcast_S_S800000 : (⟨S_, .i32⟩ : BufTy).Contents (Elt F) → (⟨S800000, .i32⟩ : BufTy).Contents (Elt F)),
    binary main_v24 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v24 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v22 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_4 (constant S_ .f32 0x00000000#32),
    unary main_cst_4 main_v34 (broadcastInDim S50000x256 ![] bcast_S_S50000x256 : (⟨S_, .f32⟩ : BufTy).Contents (Elt F) → (⟨S50000x256, .f32⟩ : BufTy).Contents (Elt F)),
    unary main_v26 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg5 main_v37 ((transpose S256x64 [1, 0] · transposes_S64x256_S256x64_1_0) : (⟨S64x256, .f32⟩ : BufTy).Contents (Elt F) → (⟨S256x64, .f32⟩ : BufTy).Contents (Elt F)),
    binary main_v36 main_v37 main_v38 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg7 main_v39 (broadcastInDim S1x64 ![1] bcast_S64_S1x64_1 : (⟨S64, .f32⟩ : BufTy).Contents (Elt F) → (⟨S1x64, .f32⟩ : BufTy).Contents (Elt F)),
    unary main_v39 main_v40 (broadcastInDim S50000x64 ![0, 1] bcast_S1x64_S50000x64_0_1 : (⟨S1x64, .f32⟩ : BufTy).Contents (Elt F) → (⟨S50000x64, .f32⟩ : BufTy).Contents (Elt F)),
    binary main_v38 main_v40 main_v41 (addf : (⟨S50000x64, .f32⟩ : BufTy).Contents (Elt F) → (⟨S50000x64, .f32⟩ : BufTy).Contents (Elt F) → (⟨S50000x64, .f32⟩ : BufTy).Contents (Elt F)),
    unary main_arg6 main_v42 ((transpose S256x64 [1, 0] · transposes_S64x256_S256x64_1_0) : (⟨S64x256, .f32⟩ : BufTy).Contents (Elt F) → (⟨S256x64, .f32⟩ : BufTy).Contents (Elt F)),
    binary main_v22 main_v42 main_v43 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3C23D70A#32),
    TRef.nullary main_call1.cst (constant S_ .f32 0x00000000#32),
    TRef.unary main_call1.cst main_call1.v0 (broadcastInDim S50000x64 ![] bcast_S_S50000x64),
    TRef.binary (.of main_v44) main_call1.v0 main_call1.v1 (cmpf .oge),
    TRef.unary (.of main_cst_5) main_call1.v2 id,
    TRef.unary main_call1.v2 main_call1.v3 (broadcastInDim S50000x64 ![] bcast_S_S50000x64),
    TRef.binary main_call1.v3 (.of main_v44) main_call1.v4 mulf,
    TRef.ternary main_call1.v1 (.of main_v44) main_call1.v4 main_call1.call0.v0 select,
    unary main_arg1 main_v46 ((extractStridedSlice S1x800000 ![0, 0] · slices_S2x800000_S1x800000_0_0) : (⟨S2x800000, .i32⟩ : BufTy).Contents (Elt F) → (⟨S1x800000, .i32⟩ : BufTy).Contents (Elt F)),
    reshape main_v46 main_v47 rfl shapeCasts_S1x800000_S800000,
    unary main_arg1 main_v48 ((extractStridedSlice S1x800000 ![1, 0] · slices_S2x800000_S1x800000_1_0) : (⟨S2x800000, .i32⟩ : BufTy).Contents (Elt F) → (⟨S1x800000, .i32⟩ : BufTy).Contents (Elt F)),
    reshape main_v48 main_v49 rfl shapeCasts_S1x800000_S800000,
    nullary main_c_6 (constantI S_ 32 0#32),
    unary main_c_6 main_v50 (broadcastInDim S800000 ![] bcast_S_S800000 : (⟨S_, .i32⟩ : BufTy).Contents (Elt F) → (⟨S800000, .i32⟩ : BufTy).Contents (Elt F)),
    binary main_v47 main_v50 main_v51 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v52 (broadcastInDim S800000 ![] bcast_S_S800000 : (⟨S_, .i32⟩ : BufTy).Contents (Elt F) → (⟨S800000, .i32⟩ : BufTy).Contents (Elt F)),
    binary main_v47 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v47 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v45 main_v55 main_v56 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v57 (broadcastInDim S50000x64 ![] bcast_S_S50000x64 : (⟨S_, .f32⟩ : BufTy).Contents (Elt F) → (⟨S50000x64, .f32⟩ : BufTy).Contents (Elt F)),
    unary main_v49 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg8 main_v60 ((transpose S64x256 [1, 0] · transposes_S256x64_S64x256_1_0) : (⟨S256x64, .f32⟩ : BufTy).Contents (Elt F) → (⟨S64x256, .f32⟩ : BufTy).Contents (Elt F)),
    binary main_v59 main_v60 main_v61 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v61 main_v63 main_v64 (addf : (⟨S50000x256, .f32⟩ : BufTy).Contents (Elt F) → (⟨S50000x256, .f32⟩ : BufTy).Contents (Elt F) → (⟨S50000x256, .f32⟩ : BufTy).Contents (Elt F)),
    unary main_arg9 main_v65 ((transpose S64x256 [1, 0] · transposes_S256x64_S64x256_1_0) : (⟨S256x64, .f32⟩ : BufTy).Contents (Elt F) → (⟨S64x256, .f32⟩ : BufTy).Contents (Elt F)),
    binary main_v45 main_v65 main_v66 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3C23D70A#32),
    TRef.nullary main_call2.cst (constant S_ .f32 0x00000000#32),
    TRef.unary main_call2.cst main_call2.v0 (broadcastInDim S50000x256 ![] bcast_S_S50000x256),
    TRef.binary (.of main_v67) main_call2.v0 main_call2.v1 (cmpf .oge),
    TRef.unary (.of main_cst_9) main_call2.v2 id,
    TRef.unary main_call2.v2 main_call2.v3 (broadcastInDim S50000x256 ![] bcast_S_S50000x256),
    TRef.binary main_call2.v3 (.of main_v67) main_call2.v4 mulf,
    TRef.ternary main_call2.v1 (.of main_v67) main_call2.v4 main_call2.call0.v0 select,
    unary main_arg1 main_v69 ((extractStridedSlice S1x800000 ![0, 0] · slices_S2x800000_S1x800000_0_0) : (⟨S2x800000, .i32⟩ : BufTy).Contents (Elt F) → (⟨S1x800000, .i32⟩ : BufTy).Contents (Elt F)),
    reshape main_v69 main_v70 rfl shapeCasts_S1x800000_S800000,
    unary main_arg1 main_v71 ((extractStridedSlice S1x800000 ![1, 0] · slices_S2x800000_S1x800000_1_0) : (⟨S2x800000, .i32⟩ : BufTy).Contents (Elt F) → (⟨S1x800000, .i32⟩ : BufTy).Contents (Elt F)),
    reshape main_v71 main_v72 rfl shapeCasts_S1x800000_S800000,
    nullary main_c_10 (constantI S_ 32 0#32),
    unary main_c_10 main_v73 (broadcastInDim S800000 ![] bcast_S_S800000 : (⟨S_, .i32⟩ : BufTy).Contents (Elt F) → (⟨S800000, .i32⟩ : BufTy).Contents (Elt F)),
    binary main_v70 main_v73 main_v74 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v75 (broadcastInDim S800000 ![] bcast_S_S800000 : (⟨S_, .i32⟩ : BufTy).Contents (Elt F) → (⟨S800000, .i32⟩ : BufTy).Contents (Elt F)),
    binary main_v70 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v70 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v68 main_v78 main_v79 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v80 (broadcastInDim S50000x256 ![] bcast_S_S50000x256 : (⟨S_, .f32⟩ : BufTy).Contents (Elt F) → (⟨S50000x256, .f32⟩ : BufTy).Contents (Elt F)),
    unary main_v72 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg11 main_v83 ((transpose S256x128 [1, 0] · transposes_S128x256_S256x128_1_0) : (⟨S128x256, .f32⟩ : BufTy).Contents (Elt F) → (⟨S256x128, .f32⟩ : BufTy).Contents (Elt F)),
    binary main_v82 main_v83 main_v84 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    unary main_arg12 main_v88 ((transpose S256x128 [1, 0] · transposes_S128x256_S256x128_1_0) : (⟨S128x256, .f32⟩ : BufTy).Contents (Elt F) → (⟨S256x128, .f32⟩ : BufTy).Contents (Elt F)),
    binary main_v68 main_v88 main_v89 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3C23D70A#32),
    TRef.nullary main_call3.cst (constant S_ .f32 0x00000000#32),
    TRef.unary main_call3.cst main_call3.v0 (broadcastInDim S50000x128 ![] bcast_S_S50000x128),
    TRef.binary (.of main_v90) main_call3.v0 main_call3.v1 (cmpf .oge),
    TRef.unary (.of main_cst_13) main_call3.v2 id,
    TRef.unary main_call3.v2 main_call3.v3 (broadcastInDim S50000x128 ![] bcast_S_S50000x128),
    TRef.binary main_call3.v3 (.of main_v90) main_call3.v4 mulf,
    TRef.ternary main_call3.v1 (.of main_v90) main_call3.v4 main_call3.call0.v0 select ]

theorem ops_split : (ops : List (HloOp τ sig (Elt F))) = opsA ++ (opsB ++ (opsC ++ opsD)) := rfl

theorem ops_sub : (ops : List (HloOp τ sig (Elt F))).Forall fun op => op.bufs ⊆ tcRefs τ sig :=
  ⟨unary_bufs_sub ..,
    reshape_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    unary_bufs_sub ..,
    ternary_bufs_sub ..,
    unary_bufs_sub ..,
    binary_bufs_sub ..,
    unary_bufs_sub ..,
    unary_bufs_sub ..,
    binary_bufs_sub ..,
    unary_bufs_sub ..,
    binary_bufs_sub ..,
    binary_bufs_sub ..,
    nullary_bufs_sub ..,
    nullary_bufs_sub ..,
    unary_bufs_sub ..,
    binary_bufs_sub ..,
    unary_bufs_sub ..,
    unary_bufs_sub ..,
    binary_bufs_sub ..,
    ternary_bufs_sub ..,
    unary_bufs_sub ..,
    reshape_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    unary_bufs_sub ..,
    ternary_bufs_sub ..,
    unary_bufs_sub ..,
    binary_bufs_sub ..,
    unary_bufs_sub ..,
    unary_bufs_sub ..,
    binary_bufs_sub ..,
    unary_bufs_sub ..,
    binary_bufs_sub ..,
    binary_bufs_sub ..,
    nullary_bufs_sub ..,
    nullary_bufs_sub ..,
    unary_bufs_sub ..,
    binary_bufs_sub ..,
    unary_bufs_sub ..,
    unary_bufs_sub ..,
    binary_bufs_sub ..,
    ternary_bufs_sub ..,
    unary_bufs_sub ..,
    reshape_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    unary_bufs_sub ..,
    ternary_bufs_sub ..,
    unary_bufs_sub ..,
    binary_bufs_sub ..,
    unary_bufs_sub ..,
    unary_bufs_sub ..,
    binary_bufs_sub ..,
    unary_bufs_sub ..,
    binary_bufs_sub ..,
    binary_bufs_sub ..,
    nullary_bufs_sub ..,
    nullary_bufs_sub ..,
    unary_bufs_sub ..,
    binary_bufs_sub ..,
    unary_bufs_sub ..,
    unary_bufs_sub ..,
    binary_bufs_sub ..,
    ternary_bufs_sub ..,
    unary_bufs_sub ..,
    reshape_bufs_sub ..,
    unary_bufs_sub ..,
    reshape_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    unary_bufs_sub ..,
    ternary_bufs_sub ..,
    unary_bufs_sub ..,
    binary_bufs_sub ..,
    unary_bufs_sub ..,
    unary_bufs_sub ..,
    binary_bufs_sub ..,
    unary_bufs_sub ..,
    binary_bufs_sub ..,
    binary_bufs_sub ..,
    nullary_bufs_sub ..,
    nullary_bufs_sub ..,
    unary_bufs_sub ..,
    binary_bufs_sub ..,
    unary_bufs_sub ..,
    unary_bufs_sub ..,
    binary_bufs_sub ..,
    ternary_bufs_sub ..⟩

end Cert.ReferenceIdeal.Ops

end
-- ==== Proof.RRun.lean ====
/- The reference's @main as a straight line. @main runs its two windows of statements in order; four of the
   statements call a leaky rectifier, whose body ends by calling a select. With every callee's body put in place of
   its call, @main is the sequence of the 132 host operations of `ops`, one `hlo` step each. A straight line of
   operations that touch TensorCore buffers only, none allocating, terminates from any memory with zero counters
   and leaves every buffer at the fold of the operations' results over the launch contents. -/
import proofs.«152855_j82635170775050_1_alg».proof.Proof.ROps
import Idealize.ShloMosaic.Lib.StableHlo.Run

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

-- a chain of 132 sequenced steps: reassociating it descends once per step
set_option maxRecDepth 16384 in
set_option maxHeartbeats 8000000 in
/-- @main is the straight line of its 132 operations: the two windows of statements one after the other, each
    outlined function's body in place of its call. Unfolding the windows, the rectifiers' bodies and the selects'
    bodies at their calls (a call's record read at its fields), both sides are one chain of `hlo` steps once
    sequencing is reassociated (bind is associative) and each callee's closing `pure` absorbed (`pure` is a left
    unit of bind). -/
theorem main_eq (c : Dev nD) : main (F := F) c = seq ops := by
  simp only [main, main_part0, main_part1, fn_leaky_relu.body, fn_leaky_relu_0.body, fn_leaky_relu_2.body,
    fn_where.body, fn_where_1.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, nothing faulting, with every
    TensorCore buffer at the fold of the operations over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RValue.lean ====
/-
  One layer of the reference, read off its 33 host operations.

  From any buffer contents `V`, the operations of layer k leave in the layer's result buffer the function `rstepK` of
  the five buffers they read (the features, the edge list, the two weight matrices, the bias): the edge list taken
  apart into sources and targets, a negative source wrapped by the node count, the gather and the scatter-add giving
  the neighbour sums, the two transposes, the two products with the bias broadcast over the rows added between them,
  and the leaky rectifier as a comparison with zero, a product with the slope and a select. Every operation's result
  is the function it applies of the buffers it reads, and a buffer it does not write is left as it was; folding the 33
  operations in order gives exactly the composed term. This holds for any float values: nothing is computed, the
  two sides are the same tree of operations (the gather and the scatter-add are kept closed throughout).
-/
import proofs.«152855_j82635170775050_1_alg».proof.Proof.ROps
import proofs.«152855_j82635170775050_1_alg».proof.Proof.Fns
import Idealize.ShloMosaic.Lib.StableHlo.Run

noncomputable section

namespace Cert.ReferenceIdeal.Value

open Cert.ReferenceIdeal Cert.ReferenceIdeal.Gen Cert.ReferenceIdeal.Ops Cert.ReferenceIdeal.Fns
open Idealize.ShloMosaic Idealize.ShloMosaic.TcCoe Idealize.SL.Sem Idealize.ShloMosaic.StableHlo

variable {F : FTy → Type} [FloatOps F] (V : Valuation τ sig (Elt F))

attribute [local irreducible] Host.gather Host.scatterAdd in
/-- Layer 0 (128 → 256): from the input features to `main_v22`. -/
theorem chunkA : after (opsA (F := F)) V (Proc.devRef .tc main_v22)
    = rstep0 (V (Proc.devRef .tc main_arg0)) (V (Proc.devRef .tc main_arg1)) (V (Proc.devRef .tc main_arg2)) (V (Proc.devRef .tc main_arg3)) (V (Proc.devRef .tc main_arg4)) := by
  after_results_simp
  rfl

attribute [local irreducible] Host.gather Host.scatterAdd in
/-- Layer 1 (256 → 64): from `main_v22` to the embedding `main_v45`. -/
theorem chunkB : after (opsB (F := F)) V (Proc.devRef .tc main_v45)
    = rstep1 (V (Proc.devRef .tc main_v22)) (V (Proc.devRef .tc main_arg1)) (V (Proc.devRef .tc main_arg5)) (V (Proc.devRef .tc main_arg6)) (V (Proc.devRef .tc main_arg7)) := by
  after_results_simp
  rfl

attribute [local irreducible] Host.gather Host.scatterAdd in
/-- Layer 2 (64 → 256): from the embedding to `main_v68`. -/
theorem chunkC : after (opsC (F := F)) V (Proc.devRef .tc main_v68)
    = rstep2 (V (Proc.devRef .tc main_v45)) (V (Proc.devRef .tc main_arg1)) (V (Proc.devRef .tc main_arg8)) (V (Proc.devRef .tc main_arg9)) (V (Proc.devRef .tc main_arg10)) := by
  after_results_simp
  rfl

attribute [local irreducible] Host.gather Host.scatterAdd in
/-- Layer 3 (256 → 128): from `main_v68` to the output `main_v91`. -/
theorem chunkD : after (opsD (F := F)) V (Proc.devRef .tc main_v91)
    = rstep3 (V (Proc.devRef .tc main_v68)) (V (Proc.devRef .tc main_arg1)) (V (Proc.devRef .tc main_arg11)) (V (Proc.devRef .tc main_arg12)) (V (Proc.devRef .tc main_arg13)) := by
  after_results_simp
  rfl

end Cert.ReferenceIdeal.Value

end
-- ==== Proof.RKeep.lean ====
/-
  A buffer that a layer's line of host operations does not write keeps its contents.

  Each of the reference program's four layers is a literal list of operations, and each operation writes exactly one
  buffer, its result (for an operation of an outlined function, the buffer its typed reference names). `writtenX`
  lists those results in the operations' order; a reference that is not in the list is written by no operation of the
  layer, so the contents after the layer, read at that reference, are the contents before it.
-/
import proofs.«152855_j82635170775050_1_alg».proof.Proof.ROps
import Idealize.ShloMosaic.Lib.StableHlo.Run

noncomputable section

namespace Cert.ReferenceIdeal.Keep

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The result buffers of the 33 operations of layer 0, in order. -/
abbrev writtenA : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_cst_1, main_call0_cst, main_call0_v0, main_call0_v1, main_call0_v2, main_call0_v3, main_call0_v4, main_v22]

/-- Every operation of layer 0 writes a buffer of `writtenA`; a reference outside the list keeps its contents. -/
theorem keepA (V : Valuation τ sig (Elt F)) {r : Ref sig .tc} (hr : r ∉ writtenA) :
    after (opsA (F := F)) V (Proc.devRef .tc r) = V (Proc.devRef .tc r) :=
  after_of_writes_sub (W := writtenA) _ V (by
    simp only [opsA, List.Forall, nullary_writes, unary_writes, binary_writes, ternary_writes, reshape_writes,
      Finset.singleton_subset_iff, List.mem_toFinset]
    repeat' apply And.intro
    all_goals exact List.mem_map_of_mem (by decide)) hr

/-- The result buffers of the 33 operations of layer 1, in order. -/
abbrev writtenB : List (Ref sig .tc) :=
  [main_v23, main_v24, main_v25, main_v26, main_c_2, main_v27, main_v28, main_c_3, main_v29, main_v30, main_v31, main_v32, main_v33, main_cst_4, main_v34, main_v35, main_v36, main_v37, main_v38, main_v39, main_v40, main_v41, main_v42, main_v43, main_v44, main_cst_5, main_call1_cst, main_call1_v0, main_call1_v1, main_call1_v2, main_call1_v3, main_call1_v4, main_v45]

/-- Every operation of layer 1 writes a buffer of `writtenB`; a reference outside the list keeps its contents. -/
theorem keepB (V : Valuation τ sig (Elt F)) {r : Ref sig .tc} (hr : r ∉ writtenB) :
    after (opsB (F := F)) V (Proc.devRef .tc r) = V (Proc.devRef .tc r) :=
  after_of_writes_sub (W := writtenB) _ V (by
    simp only [opsB, List.Forall, nullary_writes, unary_writes, binary_writes, ternary_writes, reshape_writes,
      Finset.singleton_subset_iff, List.mem_toFinset]
    repeat' apply And.intro
    all_goals exact List.mem_map_of_mem (by decide)) hr

/-- The result buffers of the 33 operations of layer 2, in order. -/
abbrev writtenC : List (Ref sig .tc) :=
  [main_v46, main_v47, main_v48, main_v49, main_c_6, main_v50, main_v51, main_c_7, main_v52, main_v53, main_v54, main_v55, main_v56, main_cst_8, main_v57, main_v58, main_v59, main_v60, main_v61, main_v62, main_v63, main_v64, main_v65, main_v66, main_v67, main_cst_9, main_call2_cst, main_call2_v0, main_call2_v1, main_call2_v2, main_call2_v3, main_call2_v4, main_v68]

/-- Every operation of layer 2 writes a buffer of `writtenC`; a reference outside the list keeps its contents. -/
theorem keepC (V : Valuation τ sig (Elt F)) {r : Ref sig .tc} (hr : r ∉ writtenC) :
    after (opsC (F := F)) V (Proc.devRef .tc r) = V (Proc.devRef .tc r) :=
  after_of_writes_sub (W := writtenC) _ V (by
    simp only [opsC, List.Forall, nullary_writes, unary_writes, binary_writes, ternary_writes, reshape_writes,
      Finset.singleton_subset_iff, List.mem_toFinset]
    repeat' apply And.intro
    all_goals exact List.mem_map_of_mem (by decide)) hr

/-- The result buffers of the 33 operations of layer 3, in order. -/
abbrev writtenD : List (Ref sig .tc) :=
  [main_v69, main_v70, main_v71, main_v72, main_c_10, main_v73, main_v74, main_c_11, main_v75, main_v76, main_v77, main_v78, main_v79, main_cst_12, main_v80, main_v81, main_v82, main_v83, main_v84, main_v85, main_v86, main_v87, main_v88, main_v89, main_v90, main_cst_13, main_call3_cst, main_call3_v0, main_call3_v1, main_call3_v2, main_call3_v3, main_call3_v4, main_v91]

/-- Every operation of layer 3 writes a buffer of `writtenD`; a reference outside the list keeps its contents. -/
theorem keepD (V : Valuation τ sig (Elt F)) {r : Ref sig .tc} (hr : r ∉ writtenD) :
    after (opsD (F := F)) V (Proc.devRef .tc r) = V (Proc.devRef .tc r) :=
  after_of_writes_sub (W := writtenD) _ V (by
    simp only [opsD, List.Forall, nullary_writes, unary_writes, binary_writes, ternary_writes, reshape_writes,
      Finset.singleton_subset_iff, List.mem_toFinset]
    repeat' apply And.intro
    all_goals exact List.mem_map_of_mem (by decide)) hr

end Cert.ReferenceIdeal.Keep

end
-- ==== Proof.LibAfter.lean ====
/-
  The fold of a line of host operations over buffer contents splits at any point of the line: the contents after
  `l₁ ++ l₂` are the contents after `l₂`, started from what `l₁` leaves.
-/
import Idealize.ShloMosaic.Lib.StableHlo.Run

namespace Cert.Lib

open Idealize.ShloMosaic Idealize.ShloMosaic.StableHlo

variable {τ : Topo} {sig : RefSig} {Val : EltTy → Type}

/-- The contents after two lines of host operations run one after the other: the second line's fold over what the
    first line leaves. (Each operation rewrites the buffers it writes and leaves the rest, so the fold of a
    concatenation is the composition of the folds.) -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.RNet.lean ====
/-
  The reference program's whole line of host operations, layer by layer.

  The line is the concatenation of four layers' lines, so the contents after it are the fourth layer's fold over the
  third's over the second's over the first's (`after_ops`). A layer's line leaves in its result buffer the reference's
  layer function (`rstep0 … rstep3`) of what five buffers held when the layer began — the previous layer's result (the
  node features for layer 0), the edge list, and the layer's own two weight matrices and bias — and leaves every
  buffer outside its list of results as it was. No layer writes an argument of the program, and a layer's result is
  written by no later layer. Reading inward from the last layer therefore gives: the arguments are as at the start;
  the embedding's buffer holds `rstep1 (rstep0 …)`; the output's buffer holds `rstep3 (rstep2 (rstep1 (rstep0 …)))`.
-/
import proofs.«152855_j82635170775050_1_alg».proof.Proof.RValue
import proofs.«152855_j82635170775050_1_alg».proof.Proof.RKeep
import proofs.«152855_j82635170775050_1_alg».proof.Proof.LibAfter
import Idealize.ShloMosaic.Lib.StableHlo.Run

noncomputable section

namespace Cert.ReferenceIdeal.Net

open Cert.ReferenceIdeal Cert.ReferenceIdeal.Gen Cert.ReferenceIdeal.Ops Cert.ReferenceIdeal.Fns
open Idealize.ShloMosaic Idealize.ShloMosaic.TcCoe Idealize.SL.Sem Idealize.ShloMosaic.StableHlo

variable (V : Valuation τ sig (Elt Ideal))

/-- The contents after the whole line: the four layers' folds, one after the other. -/
theorem after_ops : after (ops (F := Ideal)) V
    = after (opsD (F := Ideal)) (after (opsC (F := Ideal)) (after (opsB (F := Ideal)) (after (opsA (F := Ideal)) V))) := by
  rw [ops_split, Cert.Lib.after_append, Cert.Lib.after_append, Cert.Lib.after_append]

/-! ## A buffer that the first two, the first three, or all four layers do not write -/

theorem keepAB {r : Ref sig .tc} (hA : r ∉ Keep.writtenA) (hB : r ∉ Keep.writtenB) :
    after (opsB (F := Ideal)) (after (opsA (F := Ideal)) V) (Proc.devRef .tc r) = V (Proc.devRef .tc r) :=
  (Keep.keepB (F := Ideal) _ hB).trans (Keep.keepA (F := Ideal) V hA)

theorem keepABC {r : Ref sig .tc} (hA : r ∉ Keep.writtenA) (hB : r ∉ Keep.writtenB) (hC : r ∉ Keep.writtenC) :
    after (opsC (F := Ideal)) (after (opsB (F := Ideal)) (after (opsA (F := Ideal)) V)) (Proc.devRef .tc r)
      = V (Proc.devRef .tc r) :=
  (Keep.keepC (F := Ideal) _ hC).trans (keepAB V hA hB)

theorem keepABCD {r : Ref sig .tc} (hA : r ∉ Keep.writtenA) (hB : r ∉ Keep.writtenB) (hC : r ∉ Keep.writtenC)
    (hD : r ∉ Keep.writtenD) :
    after (ops (F := Ideal)) V (Proc.devRef .tc r) = V (Proc.devRef .tc r) :=
  (congrFun (after_ops V) _).trans ((Keep.keepD (F := Ideal) _ hD).trans (keepABC V hA hB hC))

/-! ## The layers' results, read after one, two, three and four layers -/

/-- After layers 0 and 1 the embedding's buffer holds layer 1 of layer 0 of the starting contents: layer 1 reads layer
    0's result where layer 0 left it, and its other four operands are arguments, which layer 0 does not write. -/
theorem emb_AB : after (opsB (F := Ideal)) (after (opsA (F := Ideal)) V) (Proc.devRef .tc main_v45)
    = rstep1 (rstep0 (V (Proc.devRef .tc main_arg0)) (V (Proc.devRef .tc main_arg1)) (V (Proc.devRef .tc main_arg2)) (V (Proc.devRef .tc main_arg3)) (V (Proc.devRef .tc main_arg4)))
        (V (Proc.devRef .tc main_arg1)) (V (Proc.devRef .tc main_arg5)) (V (Proc.devRef .tc main_arg6)) (V (Proc.devRef .tc main_arg7)) := by
  rw [Value.chunkB (after (opsA (F := Ideal)) V), Value.chunkA V,
    Keep.keepA (F := Ideal) V (r := main_arg1) (by decide), Keep.keepA (F := Ideal) V (r := main_arg5) (by decide),
    Keep.keepA (F := Ideal) V (r := main_arg6) (by decide), Keep.keepA (F := Ideal) V (r := main_arg7) (by decide)]

/-- Layer 2 does not write the embedding's buffer. -/
theorem emb_ABC : after (opsC (F := Ideal)) (after (opsB (F := Ideal)) (after (opsA (F := Ideal)) V)) (Proc.devRef .tc main_v45)
    = rstep1 (rstep0 (V (Proc.devRef .tc main_arg0)) (V (Proc.devRef .tc main_arg1)) (V (Proc.devRef .tc main_arg2)) (V (Proc.devRef .tc main_arg3)) (V (Proc.devRef .tc main_arg4)))
        (V (Proc.devRef .tc main_arg1)) (V (Proc.devRef .tc main_arg5)) (V (Proc.devRef .tc main_arg6)) (V (Proc.devRef .tc main_arg7)) :=
  (Keep.keepC (F := Ideal) _ (r := main_v45) (by decide)).trans (emb_AB V)

/-- After layers 0, 1 and 2 the third result buffer holds layer 2 of the embedding: layer 2 reads the embedding where
    layer 1 left it, and its other four operands are arguments, which layers 0 and 1 do not write. -/
theorem l2_ABC : after (opsC (F := Ideal)) (after (opsB (F := Ideal)) (after (opsA (F := Ideal)) V)) (Proc.devRef .tc main_v68)
    = rstep2 (rstep1 (rstep0 (V (Proc.devRef .tc main_arg0)) (V (Proc.devRef .tc main_arg1)) (V (Proc.devRef .tc main_arg2)) (V (Proc.devRef .tc main_arg3)) (V (Proc.devRef .tc main_arg4)))
        (V (Proc.devRef .tc main_arg1)) (V (Proc.devRef .tc main_arg5)) (V (Proc.devRef .tc main_arg6)) (V (Proc.devRef .tc main_arg7)))
        (V (Proc.devRef .tc main_arg1)) (V (Proc.devRef .tc main_arg8)) (V (Proc.devRef .tc main_arg9)) (V (Proc.devRef .tc main_arg10)) := by
  rw [Value.chunkC (after (opsB (F := Ideal)) (after (opsA (F := Ideal)) V)), emb_AB V,
    keepAB V (r := main_arg1) (by decide) (by decide), keepAB V (r := main_arg8) (by decide) (by decide),
    keepAB V (r := main_arg9) (by decide) (by decide), keepAB V (r := main_arg10) (by decide) (by decide)]

/-- The embedding's buffer after the whole line: the reference's layers 0 and 1 of the contents it started from. -/
theorem emb_eq : after (ops (F := Ideal)) V (Proc.devRef .tc main_v45)
    = rstep1 (rstep0 (V (Proc.devRef .tc main_arg0)) (V (Proc.devRef .tc main_arg1)) (V (Proc.devRef .tc main_arg2)) (V (Proc.devRef .tc main_arg3)) (V (Proc.devRef .tc main_arg4)))
        (V (Proc.devRef .tc main_arg1)) (V (Proc.devRef .tc main_arg5)) (V (Proc.devRef .tc main_arg6)) (V (Proc.devRef .tc main_arg7)) :=
  -- layers 3 and 2 do not write the embedding's buffer
  (congrFun (after_ops V) _).trans ((Keep.keepD (F := Ideal) _ (r := main_v45) (by decide)).trans (emb_ABC V))

/-- The output's buffer after the whole line: the reference's four layers. -/
theorem out_eq : after (ops (F := Ideal)) V (Proc.devRef .tc main_v91)
    = rstep3 (rstep2 (rstep1 (rstep0 (V (Proc.devRef .tc main_arg0)) (V (Proc.devRef .tc main_arg1)) (V (Proc.devRef .tc main_arg2)) (V (Proc.devRef .tc main_arg3)) (V (Proc.devRef .tc main_arg4)))
        (V (Proc.devRef .tc main_arg1)) (V (Proc.devRef .tc main_arg5)) (V (Proc.devRef .tc main_arg6)) (V (Proc.devRef .tc main_arg7)))
        (V (Proc.devRef .tc main_arg1)) (V (Proc.devRef .tc main_arg8)) (V (Proc.devRef .tc main_arg9)) (V (Proc.devRef .tc main_arg10)))
        (V (Proc.devRef .tc main_arg1)) (V (Proc.devRef .tc main_arg11)) (V (Proc.devRef .tc main_arg12)) (V (Proc.devRef .tc main_arg13)) := by
  -- layer 3 reads layer 2's result where layer 2 left it; its other four operands are arguments
  rw [after_ops V, Value.chunkD (after (opsC (F := Ideal)) (after (opsB (F := Ideal)) (after (opsA (F := Ideal)) V))), l2_ABC V,
    keepABC V (r := main_arg1) (by decide) (by decide) (by decide), keepABC V (r := main_arg11) (by decide) (by decide) (by decide),
    keepABC V (r := main_arg12) (by decide) (by decide) (by decide), keepABC V (r := main_arg13) (by decide) (by decide) (by decide)]

/-- No operation writes an argument's buffer. -/
theorem arg0_eq : after (ops (F := Ideal)) V (Proc.devRef .tc main_arg0) = V (Proc.devRef .tc main_arg0) :=
  keepABCD V (by decide) (by decide) (by decide) (by decide)
theorem arg1_eq : after (ops (F := Ideal)) V (Proc.devRef .tc main_arg1) = V (Proc.devRef .tc main_arg1) :=
  keepABCD V (by decide) (by decide) (by decide) (by decide)
theorem arg2_eq : after (ops (F := Ideal)) V (Proc.devRef .tc main_arg2) = V (Proc.devRef .tc main_arg2) :=
  keepABCD V (by decide) (by decide) (by decide) (by decide)
theorem arg3_eq : after (ops (F := Ideal)) V (Proc.devRef .tc main_arg3) = V (Proc.devRef .tc main_arg3) :=
  keepABCD V (by decide) (by decide) (by decide) (by decide)
theorem arg4_eq : after (ops (F := Ideal)) V (Proc.devRef .tc main_arg4) = V (Proc.devRef .tc main_arg4) :=
  keepABCD V (by decide) (by decide) (by decide) (by decide)
theorem arg5_eq : after (ops (F := Ideal)) V (Proc.devRef .tc main_arg5) = V (Proc.devRef .tc main_arg5) :=
  keepABCD V (by decide) (by decide) (by decide) (by decide)
theorem arg6_eq : after (ops (F := Ideal)) V (Proc.devRef .tc main_arg6) = V (Proc.devRef .tc main_arg6) :=
  keepABCD V (by decide) (by decide) (by decide) (by decide)
theorem arg7_eq : after (ops (F := Ideal)) V (Proc.devRef .tc main_arg7) = V (Proc.devRef .tc main_arg7) :=
  keepABCD V (by decide) (by decide) (by decide) (by decide)
theorem arg8_eq : after (ops (F := Ideal)) V (Proc.devRef .tc main_arg8) = V (Proc.devRef .tc main_arg8) :=
  keepABCD V (by decide) (by decide) (by decide) (by decide)
theorem arg9_eq : after (ops (F := Ideal)) V (Proc.devRef .tc main_arg9) = V (Proc.devRef .tc main_arg9) :=
  keepABCD V (by decide) (by decide) (by decide) (by decide)
theorem arg10_eq : after (ops (F := Ideal)) V (Proc.devRef .tc main_arg10) = V (Proc.devRef .tc main_arg10) :=
  keepABCD V (by decide) (by decide) (by decide) (by decide)
theorem arg11_eq : after (ops (F := Ideal)) V (Proc.devRef .tc main_arg11) = V (Proc.devRef .tc main_arg11) :=
  keepABCD V (by decide) (by decide) (by decide) (by decide)
theorem arg12_eq : after (ops (F := Ideal)) V (Proc.devRef .tc main_arg12) = V (Proc.devRef .tc main_arg12) :=
  keepABCD V (by decide) (by decide) (by decide) (by decide)
theorem arg13_eq : after (ops (F := Ideal)) V (Proc.devRef .tc main_arg13) = V (Proc.devRef .tc main_arg13) :=
  keepABCD V (by decide) (by decide) (by decide) (by decide)

end Cert.ReferenceIdeal.Net

end
-- ==== Proof.Bridge.lean ====
/-
  The reference's layer is the kernel's layer, at the extended reals.

  Per layer the reference forms x = (agg · wT + B) + h · rT over whole arrays, B the bias broadcast first to a one-row
  matrix and then over the rows, and returns select (x ≥ 0) x (s · x). Read at entry (p, q): each matrix product is
  Σ_κ l[p, κ] · r[κ, q]; B[p, q] is b[q], which is also entry (0, q) of the bias reshaped to one row; the comparison
  with the zero word, the product with the slope's word and the select are the leaky rectifier of x[p, q]. So the
  entry is lrelu ((Σ agg · wT + b[q]) + Σ h · rT), and since addition of extended reals is commutative and associative
  this is lrelu ((Σ agg · wT + Σ h · rT) + b[q]), the layer's entry. The reference's layers from the features apply
  their core to the same neighbour sums and transposed weights as the kernel's, so they are the kernel's layers.
-/
import proofs.«152855_j82635170775050_1_alg».proof.Proof.Fns
import proofs.«152855_j82635170775050_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx

/-! ## The pieces of the reference's layer, read at an entry (any sizes) -/

/-- The bias broadcast to a one-row matrix and then over the rows, read at `(p, q)`, is the bias at `q`: the first
    broadcast reads row 0 of the one-row matrix, the second reads the bias at the column. -/
theorem bias_apply {α : Type} {n dz : Nat}
    (h1 : (⟨1, ![dz]⟩ : Shape).BroadcastsInDim ⟨2, ![1, dz]⟩ ![1])
    (h2 : (⟨2, ![1, dz]⟩ : Shape).BroadcastsInDim ⟨2, ![n, dz]⟩ ![0, 1])
    (b : (⟨1, ![dz]⟩ : Shape).Idx → α) (p : Fin n) (q : Fin dz) :
    broadcastInDim ⟨2, ![n, dz]⟩ ![0, 1] h2 (broadcastInDim ⟨2, ![1, dz]⟩ ![1] h1 b) (ix2 p q) = b (ix1 q) := by
  have hq := q.isLt
  rw [broadcastInDim_apply ![0, 1] h2 _ (ix2 p q) (ix2 (0 : Fin 1) q) ?_,
    broadcastInDim_apply ![1] h1 b (ix2 (0 : Fin 1) q) (ix1 q) ?_]
  · intro a
    match a with
    | ⟨0, _⟩ =>
      show q.val = if dz = 1 then 0 else q.val
      split <;> omega
  · intro a
    match a with
    | ⟨0, _⟩ => rfl
    | ⟨1, _⟩ =>
      show q.val = if dz = 1 then 0 else q.val
      split <;> omega

/-- The bias as a one-row matrix, read at `(0, q)`, is the bias at `q`: both have row-major position `q`. -/
theorem row_apply {α : Type} {dz : Nat} (hc : (⟨1, ![dz]⟩ : Shape).ShapeCasts ⟨2, ![1, dz]⟩)
    (b : (⟨1, ![dz]⟩ : Shape).Idx → α) (q : Fin dz) :
    shapeCast ⟨2, ![1, dz]⟩ b hc (ix2 (0 : Fin 1) q) = b (ix1 q) := by
  refine shapeCast_apply b hc (ix2 (0 : Fin 1) q) (ix1 q) ?_
  rw [Shape.rowMajor_val_one, Shape.rowMajor_val_two]
  show q.val = 0 * dz + q.val
  omega

/-- The comparison with the splat zero word, the product with the splat slope word and the select, read at an index,
    are the leaky rectifier of the entry: a splat reads its scalar at every index. -/
theorem shell_apply {s : Shape} (h0 : (⟨0, ![]⟩ : Shape).BroadcastsInDim s ![]) (x : FVec Ideal s .f32) (j : s.Idx) :
    select (cmpf (F := Ideal) .oge x (broadcastInDim s ![] h0 (constant (F := Ideal) ⟨0, ![]⟩ .f32 0x00000000#32))) x
      (mulf (F := Ideal) (broadcastInDim s ![] h0 (id (constant (F := Ideal) ⟨0, ![]⟩ .f32 0x3C23D70A#32))) x) j
      = Cert.Spec.lrelu (x j) := rfl

/-- The entry before the rectifier as the reference computes it: the first product's sum, plus the bias at the column,
    plus the second product's sum. -/
theorem pre'_apply {n di dz : Nat} (d : DotDims ⟨2, ![n, di]⟩ ⟨2, ![di, dz]⟩ ⟨2, ![n, dz]⟩) (hd : d = DotDims.plain n di dz)
    (h1 : (⟨1, ![dz]⟩ : Shape).BroadcastsInDim ⟨2, ![1, dz]⟩ ![1])
    (h2 : (⟨2, ![1, dz]⟩ : Shape).BroadcastsInDim ⟨2, ![n, dz]⟩ ![0, 1])
    (hc : (⟨1, ![dz]⟩ : Shape).ShapeCasts ⟨2, ![1, dz]⟩)
    (agg h : FVec Ideal ⟨2, ![n, di]⟩ .f32) (wT rT : FVec Ideal ⟨2, ![di, dz]⟩ .f32) (b : FVec Ideal ⟨1, ![dz]⟩ .f32)
    (p : Fin n) (q : Fin dz) :
    addf (F := Ideal) (addf (F := Ideal) (Host.dotGeneral (F := Ideal) (φ₁ := .f32) (φ₂ := .f32) d none agg wT)
        (broadcastInDim ⟨2, ![n, dz]⟩ ![0, 1] h2 (broadcastInDim ⟨2, ![1, dz]⟩ ![1] h1 b)))
      (Host.dotGeneral (F := Ideal) (φ₁ := .f32) (φ₂ := .f32) d none h rT) (ix2 p q)
      = Cert.Spec.pre' agg h wT rT (shapeCast ⟨2, ![1, dz]⟩ b hc) p q := by
  rw [addf_apply, addf_apply, bias_apply h1 h2 b p q]
  simp only [Host.dotGeneral]
  rw [Cert.Lib.dotGeneral_plain_apply d hd, Cert.Lib.dotGeneral_plain_apply d hd]
  unfold Cert.Spec.pre' Cert.Spec.relSum
  rw [row_apply hc b q]
  rfl

/-! ## The reference's core is the layer: the bias between the two products or after them, the same extended real -/
theorem core0_eq (agg h : (⟨Cert.ReferenceIdeal.S50000x128, .f32⟩ : BufTy).Contents (Elt Ideal)) (wT rT : (⟨Cert.ReferenceIdeal.S128x256, .f32⟩ : BufTy).Contents (Elt Ideal)) (b : (⟨Cert.ReferenceIdeal.S256, .f32⟩ : BufTy).Contents (Elt Ideal)) :
    Cert.ReferenceIdeal.Fns.core0 agg h wT rT b = Cert.Spec.layer (n := 50000) (di := 128) (dz := 256) agg h wT rT (Cert.KernelIdeal.Fns.row256 b) := by
  funext i
  obtain ⟨p, q, rfl⟩ : ∃ (p : Fin 50000) (q : Fin 256), i = ix2 p q := ⟨i 0, i 1, eq_ix2 i⟩
  simp only [Cert.ReferenceIdeal.Fns.core0]
  rw [shell_apply]
  -- the entry is lrelu of (Σ agg·wT + b[q]) + Σ h·rT; moving the bias last gives the layer's entry
  exact congrArg Cert.Spec.lrelu
    ((pre'_apply Cert.ReferenceIdeal.dot_S50000x128_S128x256_S50000x256_1_0_0_1_n_n rfl _ _
      Cert.KernelIdeal.Gen.shapeCasts_S256_S1x256 agg h wT rT b p q).trans (Cert.Spec.pre_comm _ _ _ _ _ p q))
theorem core1_eq (agg h : (⟨Cert.ReferenceIdeal.S50000x256, .f32⟩ : BufTy).Contents (Elt Ideal)) (wT rT : (⟨Cert.ReferenceIdeal.S256x64, .f32⟩ : BufTy).Contents (Elt Ideal)) (b : (⟨Cert.ReferenceIdeal.S64, .f32⟩ : BufTy).Contents (Elt Ideal)) :
    Cert.ReferenceIdeal.Fns.core1 agg h wT rT b = Cert.Spec.layer (n := 50000) (di := 256) (dz := 64) agg h wT rT (Cert.KernelIdeal.Fns.row64 b) := by
  funext i
  obtain ⟨p, q, rfl⟩ : ∃ (p : Fin 50000) (q : Fin 64), i = ix2 p q := ⟨i 0, i 1, eq_ix2 i⟩
  simp only [Cert.ReferenceIdeal.Fns.core1]
  rw [shell_apply]
  -- the entry is lrelu of (Σ agg·wT + b[q]) + Σ h·rT; moving the bias last gives the layer's entry
  exact congrArg Cert.Spec.lrelu
    ((pre'_apply Cert.ReferenceIdeal.dot_S50000x256_S256x64_S50000x64_1_0_0_1_n_n rfl _ _
      Cert.KernelIdeal.Gen.shapeCasts_S64_S1x64 agg h wT rT b p q).trans (Cert.Spec.pre_comm _ _ _ _ _ p q))
theorem core2_eq (agg h : (⟨Cert.ReferenceIdeal.S50000x64, .f32⟩ : BufTy).Contents (Elt Ideal)) (wT rT : (⟨Cert.ReferenceIdeal.S64x256, .f32⟩ : BufTy).Contents (Elt Ideal)) (b : (⟨Cert.ReferenceIdeal.S256, .f32⟩ : BufTy).Contents (Elt Ideal)) :
    Cert.ReferenceIdeal.Fns.core2 agg h wT rT b = Cert.Spec.layer (n := 50000) (di := 64) (dz := 256) agg h wT rT (Cert.KernelIdeal.Fns.row256 b) := by
  funext i
  obtain ⟨p, q, rfl⟩ : ∃ (p : Fin 50000) (q : Fin 256), i = ix2 p q := ⟨i 0, i 1, eq_ix2 i⟩
  simp only [Cert.ReferenceIdeal.Fns.core2]
  rw [shell_apply]
  -- the entry is lrelu of (Σ agg·wT + b[q]) + Σ h·rT; moving the bias last gives the layer's entry
  exact congrArg Cert.Spec.lrelu
    ((pre'_apply Cert.ReferenceIdeal.dot_S50000x64_S64x256_S50000x256_1_0_0_1_n_n rfl _ _
      Cert.KernelIdeal.Gen.shapeCasts_S256_S1x256 agg h wT rT b p q).trans (Cert.Spec.pre_comm _ _ _ _ _ p q))
theorem core3_eq (agg h : (⟨Cert.ReferenceIdeal.S50000x256, .f32⟩ : BufTy).Contents (Elt Ideal)) (wT rT : (⟨Cert.ReferenceIdeal.S256x128, .f32⟩ : BufTy).Contents (Elt Ideal)) (b : (⟨Cert.ReferenceIdeal.S128, .f32⟩ : BufTy).Contents (Elt Ideal)) :
    Cert.ReferenceIdeal.Fns.core3 agg h wT rT b = Cert.Spec.layer (n := 50000) (di := 256) (dz := 128) agg h wT rT (Cert.KernelIdeal.Fns.row128 b) := by
  funext i
  obtain ⟨p, q, rfl⟩ : ∃ (p : Fin 50000) (q : Fin 128), i = ix2 p q := ⟨i 0, i 1, eq_ix2 i⟩
  simp only [Cert.ReferenceIdeal.Fns.core3]
  rw [shell_apply]
  -- the entry is lrelu of (Σ agg·wT + b[q]) + Σ h·rT; moving the bias last gives the layer's entry
  exact congrArg Cert.Spec.lrelu
    ((pre'_apply Cert.ReferenceIdeal.dot_S50000x256_S256x128_S50000x128_1_0_0_1_n_n rfl _ _
      Cert.KernelIdeal.Gen.shapeCasts_S128_S1x128 agg h wT rT b p q).trans (Cert.Spec.pre_comm _ _ _ _ _ p q))

/-! ## So each of the reference's layers is the kernel's -/
theorem rstep0_eq (h : (⟨Cert.ReferenceIdeal.S50000x128, .f32⟩ : BufTy).Contents (Elt Ideal)) (e : (⟨Cert.ReferenceIdeal.S2x800000, .i32⟩ : BufTy).Contents (Elt Ideal)) (W R : (⟨Cert.ReferenceIdeal.S256x128, .f32⟩ : BufTy).Contents (Elt Ideal)) (b : (⟨Cert.ReferenceIdeal.S256, .f32⟩ : BufTy).Contents (Elt Ideal)) :
    Cert.ReferenceIdeal.Fns.rstep0 h e W R b = Cert.KernelIdeal.Fns.step0 h e W R b := by
  unfold Cert.ReferenceIdeal.Fns.rstep0 Cert.KernelIdeal.Fns.step0
  exact core0_eq _ _ _ _ _
theorem rstep1_eq (h : (⟨Cert.ReferenceIdeal.S50000x256, .f32⟩ : BufTy).Contents (Elt Ideal)) (e : (⟨Cert.ReferenceIdeal.S2x800000, .i32⟩ : BufTy).Contents (Elt Ideal)) (W R : (⟨Cert.ReferenceIdeal.S64x256, .f32⟩ : BufTy).Contents (Elt Ideal)) (b : (⟨Cert.ReferenceIdeal.S64, .f32⟩ : BufTy).Contents (Elt Ideal)) :
    Cert.ReferenceIdeal.Fns.rstep1 h e W R b = Cert.KernelIdeal.Fns.step1 h e W R b := by
  unfold Cert.ReferenceIdeal.Fns.rstep1 Cert.KernelIdeal.Fns.step1
  exact core1_eq _ _ _ _ _
theorem rstep2_eq (h : (⟨Cert.ReferenceIdeal.S50000x64, .f32⟩ : BufTy).Contents (Elt Ideal)) (e : (⟨Cert.ReferenceIdeal.S2x800000, .i32⟩ : BufTy).Contents (Elt Ideal)) (W R : (⟨Cert.ReferenceIdeal.S256x64, .f32⟩ : BufTy).Contents (Elt Ideal)) (b : (⟨Cert.ReferenceIdeal.S256, .f32⟩ : BufTy).Contents (Elt Ideal)) :
    Cert.ReferenceIdeal.Fns.rstep2 h e W R b = Cert.KernelIdeal.Fns.step2 h e W R b := by
  unfold Cert.ReferenceIdeal.Fns.rstep2 Cert.KernelIdeal.Fns.step2
  exact core2_eq _ _ _ _ _
theorem rstep3_eq (h : (⟨Cert.ReferenceIdeal.S50000x256, .f32⟩ : BufTy).Contents (Elt Ideal)) (e : (⟨Cert.ReferenceIdeal.S2x800000, .i32⟩ : BufTy).Contents (Elt Ideal)) (W R : (⟨Cert.ReferenceIdeal.S128x256, .f32⟩ : BufTy).Contents (Elt Ideal)) (b : (⟨Cert.ReferenceIdeal.S128, .f32⟩ : BufTy).Contents (Elt Ideal)) :
    Cert.ReferenceIdeal.Fns.rstep3 h e W R b = Cert.KernelIdeal.Fns.step3 h e W R b := by
  unfold Cert.ReferenceIdeal.Fns.rstep3 Cert.KernelIdeal.Fns.step3
  exact core3_eq _ _ _ _ _

end Cert.Bridge

end
-- ==== Proof.lean ====
/-
  Four graph-convolution layers, block by block on the TensorCore against whole arrays on the host.

  Each layer takes node features `h : [50000, dᵢ]` and the edge list to the neighbour sums `agg` (the rows of `h`
  at the edges' sources added into the rows of their targets: the same gather and scatter-add in both programs,
  never opened here) and then to `lrelu(agg · W_relᵀ + h · W_rootᵀ + b)`. The kernel computes the dense part in one
  pallas_call per layer, 25 blocks of 2000 rows, adding the bias after both products; the reference computes it
  on whole arrays, adding the bias between the products. On the extended reals the two orders of the three-term
  sum agree by commutativity and associativity of addition alone (`Cert.Spec.pre_comm`), so the inputs' finiteness
  is never used; a change of float format is the identity there, and both sides multiply by the same slope word.

  The pieces: `Cert.Spec` states one layer index by index; `Cert.KernelIdeal.Fns` names the shared host functions and
  the four layers `step0 … step3`, `netEmb` (layers 0, 1: the second result) and `netOut` (all four: the first result);
  `Cert.KernelIdeal.Run.run_named` is the kernel's run with the two result arrays at what the run's fold of buffer
  contents leaves in them, which `Cert.KernelIdeal.Value` reads as `netOut` / `netEmb` of the launch memory (each
  pallas_call's array by the cover of its 25 row blocks, `Cert.KernelIdeal.Region0 … Region3`; each host stretch
  operation by operation); `Cert.ReferenceIdeal.Run.run_main` is the reference's run as the fold of its 132 host
  operations, `Cert.ReferenceIdeal.Value` reads one layer's operations, `Cert.ReferenceIdeal.Net` composes the four, and `Cert.Bridge` shows each of the
  reference's layers to be the kernel's. The frames of the two kernel programs are the generated ones; the
  reference's frame is its run with the results dropped; the idealization rewrote nothing, so `preserves` is trivial.
-/
import proofs.«152855_j82635170775050_1_alg».proof.Defs
import proofs.«152855_j82635170775050_1_alg».proof.Proof.Gen.Kernel
import proofs.«152855_j82635170775050_1_alg».proof.Proof.Gen.Kernel.Frame
import proofs.«152855_j82635170775050_1_alg».proof.Proof.Gen.KernelIdeal
import proofs.«152855_j82635170775050_1_alg».proof.Proof.Gen.KernelIdeal.Frame
import proofs.«152855_j82635170775050_1_alg».proof.Proof.Gen.ReferenceIdeal
import proofs.«152855_j82635170775050_1_alg».proof.Proof.Gen.Pre_finite_inputs
import proofs.«152855_j82635170775050_1_alg».proof.Proof.Fns
import proofs.«152855_j82635170775050_1_alg».proof.Proof.KRun
import proofs.«152855_j82635170775050_1_alg».proof.Proof.KValue
import proofs.«152855_j82635170775050_1_alg».proof.Proof.RRun
import proofs.«152855_j82635170775050_1_alg».proof.Proof.RValue
import proofs.«152855_j82635170775050_1_alg».proof.Proof.RNet
import proofs.«152855_j82635170775050_1_alg».proof.Proof.Bridge

noncomputable section

namespace Cert.Proof

open Idealize.ShloMosaic Idealize.ShloMosaic.TcCoe Idealize.SL.Sem Idealize.ShloMosaic.StableHlo

/-! ## The reference's two results, from any contents whose arguments are known -/

section RefValue

variable (V : Valuation Cert.ReferenceIdeal.τ Cert.ReferenceIdeal.sig (Elt Ideal))
    (a0 : (⟨Cert.KernelIdeal.S50000x128, .f32⟩ : BufTy).Contents (Elt Ideal))
    (a1 : (⟨Cert.KernelIdeal.S2x800000, .i32⟩ : BufTy).Contents (Elt Ideal))
    (a2 : (⟨Cert.KernelIdeal.S256x128, .f32⟩ : BufTy).Contents (Elt Ideal))
    (a3 : (⟨Cert.KernelIdeal.S256x128, .f32⟩ : BufTy).Contents (Elt Ideal))
    (a4 : (⟨Cert.KernelIdeal.S256, .f32⟩ : BufTy).Contents (Elt Ideal))
    (a5 : (⟨Cert.KernelIdeal.S64x256, .f32⟩ : BufTy).Contents (Elt Ideal))
    (a6 : (⟨Cert.KernelIdeal.S64x256, .f32⟩ : BufTy).Contents (Elt Ideal))
    (a7 : (⟨Cert.KernelIdeal.S64, .f32⟩ : BufTy).Contents (Elt Ideal))
    (a8 : (⟨Cert.KernelIdeal.S256x64, .f32⟩ : BufTy).Contents (Elt Ideal))
    (a9 : (⟨Cert.KernelIdeal.S256x64, .f32⟩ : BufTy).Contents (Elt Ideal))
    (a10 : (⟨Cert.KernelIdeal.S256, .f32⟩ : BufTy).Contents (Elt Ideal))
    (a11 : (⟨Cert.KernelIdeal.S128x256, .f32⟩ : BufTy).Contents (Elt Ideal))
    (a12 : (⟨Cert.KernelIdeal.S128x256, .f32⟩ : BufTy).Contents (Elt Ideal))
    (a13 : (⟨Cert.KernelIdeal.S128, .f32⟩ : BufTy).Contents (Elt Ideal))

/-- After the reference's whole line the output's buffer holds the kernel's four layers of the arguments. -/
theorem ref_out (h0 : V (Proc.devRef .tc Cert.ReferenceIdeal.main_arg0) = a0) (h1 : V (Proc.devRef .tc Cert.ReferenceIdeal.main_arg1) = a1) (h2 : V (Proc.devRef .tc Cert.ReferenceIdeal.main_arg2) = a2) (h3 : V (Proc.devRef .tc Cert.ReferenceIdeal.main_arg3) = a3) (h4 : V (Proc.devRef .tc Cert.ReferenceIdeal.main_arg4) = a4) (h5 : V (Proc.devRef .tc Cert.ReferenceIdeal.main_arg5) = a5) (h6 : V (Proc.devRef .tc Cert.ReferenceIdeal.main_arg6) = a6) (h7 : V (Proc.devRef .tc Cert.ReferenceIdeal.main_arg7) = a7) (h8 : V (Proc.devRef .tc Cert.ReferenceIdeal.main_arg8) = a8) (h9 : V (Proc.devRef .tc Cert.ReferenceIdeal.main_arg9) = a9) (h10 : V (Proc.devRef .tc Cert.ReferenceIdeal.main_arg10) = a10) (h11 : V (Proc.devRef .tc Cert.ReferenceIdeal.main_arg11) = a11) (h12 : V (Proc.devRef .tc Cert.ReferenceIdeal.main_arg12) = a12) (h13 : V (Proc.devRef .tc Cert.ReferenceIdeal.main_arg13) = a13) :
    after (Cert.ReferenceIdeal.Ops.ops (F := Ideal)) V (Proc.devRef .tc Cert.ReferenceIdeal.main_v91)
      = Cert.KernelIdeal.Fns.netOut a0 a1 a2 a3 a4 a5 a6 a7 a8 a9 a10 a11 a12 a13 := by
  rw [Cert.ReferenceIdeal.Net.out_eq, Cert.Bridge.rstep0_eq, Cert.Bridge.rstep1_eq, Cert.Bridge.rstep2_eq, Cert.Bridge.rstep3_eq,
    h0, h1, h2, h3, h4, h5, h6, h7, h8, h9, h10, h11, h12, h13]
  rfl

/-- And the embedding's buffer holds the first two. -/
theorem ref_emb (h0 : V (Proc.devRef .tc Cert.ReferenceIdeal.main_arg0) = a0) (h1 : V (Proc.devRef .tc Cert.ReferenceIdeal.main_arg1) = a1) (h2 : V (Proc.devRef .tc Cert.ReferenceIdeal.main_arg2) = a2) (h3 : V (Proc.devRef .tc Cert.ReferenceIdeal.main_arg3) = a3) (h4 : V (Proc.devRef .tc Cert.ReferenceIdeal.main_arg4) = a4) (h5 : V (Proc.devRef .tc Cert.ReferenceIdeal.main_arg5) = a5) (h6 : V (Proc.devRef .tc Cert.ReferenceIdeal.main_arg6) = a6) (h7 : V (Proc.devRef .tc Cert.ReferenceIdeal.main_arg7) = a7) (h8 : V (Proc.devRef .tc Cert.ReferenceIdeal.main_arg8) = a8) (h9 : V (Proc.devRef .tc Cert.ReferenceIdeal.main_arg9) = a9) (h10 : V (Proc.devRef .tc Cert.ReferenceIdeal.main_arg10) = a10) (h11 : V (Proc.devRef .tc Cert.ReferenceIdeal.main_arg11) = a11) (h12 : V (Proc.devRef .tc Cert.ReferenceIdeal.main_arg12) = a12) (h13 : V (Proc.devRef .tc Cert.ReferenceIdeal.main_arg13) = a13) :
    after (Cert.ReferenceIdeal.Ops.ops (F := Ideal)) V (Proc.devRef .tc Cert.ReferenceIdeal.main_v45)
      = Cert.KernelIdeal.Fns.netEmb a0 a1 a2 a3 a4 a5 a6 a7 := by
  rw [Cert.ReferenceIdeal.Net.emb_eq, Cert.Bridge.rstep0_eq, Cert.Bridge.rstep1_eq, h0, h1, h2, h3, h4, h5, h6, h7]
  rfl

end RefValue

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with its results dropped: no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Net.arg0_eq _),
     (h c Cert.ReferenceIdeal.main_arg1).trans (Cert.ReferenceIdeal.Net.arg1_eq _),
     (h c Cert.ReferenceIdeal.main_arg2).trans (Cert.ReferenceIdeal.Net.arg2_eq _),
     (h c Cert.ReferenceIdeal.main_arg3).trans (Cert.ReferenceIdeal.Net.arg3_eq _),
     (h c Cert.ReferenceIdeal.main_arg4).trans (Cert.ReferenceIdeal.Net.arg4_eq _),
     (h c Cert.ReferenceIdeal.main_arg5).trans (Cert.ReferenceIdeal.Net.arg5_eq _),
     (h c Cert.ReferenceIdeal.main_arg6).trans (Cert.ReferenceIdeal.Net.arg6_eq _),
     (h c Cert.ReferenceIdeal.main_arg7).trans (Cert.ReferenceIdeal.Net.arg7_eq _),
     (h c Cert.ReferenceIdeal.main_arg8).trans (Cert.ReferenceIdeal.Net.arg8_eq _),
     (h c Cert.ReferenceIdeal.main_arg9).trans (Cert.ReferenceIdeal.Net.arg9_eq _),
     (h c Cert.ReferenceIdeal.main_arg10).trans (Cert.ReferenceIdeal.Net.arg10_eq _),
     (h c Cert.ReferenceIdeal.main_arg11).trans (Cert.ReferenceIdeal.Net.arg11_eq _),
     (h c Cert.ReferenceIdeal.main_arg12).trans (Cert.ReferenceIdeal.Net.arg12_eq _),
     (h c Cert.ReferenceIdeal.main_arg13).trans (Cert.ReferenceIdeal.Net.arg13_eq _)⟩)
    (Cert.ReferenceIdeal.Run.run_main (F := Ideal) m ρ)

theorem preserves : Cert.preserves_Kernel_KernelIdeal := trivial

/-- Both runs end with the first result at `netOut` and the second at `netEmb` of the kernel's launch arguments: the
    kernel's by its run's fold read back, the reference's by its fold read layer by layer and the arguments' agreement. -/
theorem algebraic : Cert.algebraic_KernelIdeal_ReferenceIdeal := by
  intro m ρ m' ρ' _ hagree
  refine ⟨fun c => Cert.KernelIdeal.Fns.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.KernelIdeal.Fns.netEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.out_eq m ρ c), (h c).2.1.trans (Cert.KernelIdeal.Value.emb_eq m ρ c), (h c).2.2⟩)
      (Cert.KernelIdeal.Run.run_named (F := Ideal) m ρ)
  · refine (θ_run Cert.ReferenceIdeal.defs _ _).mono (fun r h c => ?_) (Cert.ReferenceIdeal.Run.run_main (F := Ideal) m' ρ')
    obtain ⟨e0, e1, e2, e3, e4, e5, e6, e7, e8, e9, e10, e11, e12, e13⟩ := hagree c
    exact ⟨(h c Cert.ReferenceIdeal.main_v91).trans (ref_out _ _ _ _ _ _ _ _ _ _ _ _ _ _ _ e0 e1 e2 e3 e4 e5 e6 e7 e8 e9 e10 e11 e12 e13),
      (h c Cert.ReferenceIdeal.main_v45).trans (ref_emb _ _ _ _ _ _ _ _ _ _ _ _ _ _ _ e0 e1 e2 e3 e4 e5 e6 e7 e8 e9 e10 e11 e12 e13),
      (h c Cert.ReferenceIdeal.main_arg0).trans (Cert.ReferenceIdeal.Net.arg0_eq _),
      (h c Cert.ReferenceIdeal.main_arg1).trans (Cert.ReferenceIdeal.Net.arg1_eq _),
      (h c Cert.ReferenceIdeal.main_arg2).trans (Cert.ReferenceIdeal.Net.arg2_eq _),
      (h c Cert.ReferenceIdeal.main_arg3).trans (Cert.ReferenceIdeal.Net.arg3_eq _),
      (h c Cert.ReferenceIdeal.main_arg4).trans (Cert.ReferenceIdeal.Net.arg4_eq _),
      (h c Cert.ReferenceIdeal.main_arg5).trans (Cert.ReferenceIdeal.Net.arg5_eq _),
      (h c Cert.ReferenceIdeal.main_arg6).trans (Cert.ReferenceIdeal.Net.arg6_eq _),
      (h c Cert.ReferenceIdeal.main_arg7).trans (Cert.ReferenceIdeal.Net.arg7_eq _),
      (h c Cert.ReferenceIdeal.main_arg8).trans (Cert.ReferenceIdeal.Net.arg8_eq _),
      (h c Cert.ReferenceIdeal.main_arg9).trans (Cert.ReferenceIdeal.Net.arg9_eq _),
      (h c Cert.ReferenceIdeal.main_arg10).trans (Cert.ReferenceIdeal.Net.arg10_eq _),
      (h c Cert.ReferenceIdeal.main_arg11).trans (Cert.ReferenceIdeal.Net.arg11_eq _),
      (h c Cert.ReferenceIdeal.main_arg12).trans (Cert.ReferenceIdeal.Net.arg12_eq _),
      (h c Cert.ReferenceIdeal.main_arg13).trans (Cert.ReferenceIdeal.Net.arg13_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
